-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S40000x128 .f32) (main_arg1 : IVec S2x640000 32) (main_arg2 : FVec F S640000 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S1x128 : Shape := ⟨2, ![1, 128]⟩
abbrev S5000x128 : Shape := ⟨2, ![5000, 128]⟩
abbrev S640000x128 : Shape := ⟨2, ![640000, 128]⟩
abbrev S5000x1 : Shape := ⟨2, ![5000, 1]⟩
abbrev S5000 : Shape := ⟨1, ![5000]⟩

abbrev nBuf : Space → Nat
  | .hbm => 84
  | .vmem => 34
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S40000, .f32⟩
  | .hbm, ⟨15, _⟩ => ⟨S640000x1, .i32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S40000, .f32⟩
  | .hbm, ⟨20, _⟩ => ⟨S40000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S640000, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000, .f32⟩
  | .hbm, ⟨40, _⟩ => ⟨S640000, .f32⟩
  | .hbm, ⟨41, _⟩ => ⟨S40000, .f32⟩
  | .hbm, ⟨42, _⟩ => ⟨S40000x1, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S640000x1, .f32⟩
  | .hbm, ⟨58, _⟩ => ⟨S640000x128, .f32⟩
  | .hbm, ⟨59, _⟩ => ⟨S640000x128, .f32⟩
  | .hbm, ⟨60, _⟩ => ⟨S_, .f32⟩
  | .hbm, ⟨61, _⟩ => ⟨S40000x128, .f32⟩
  | .hbm, ⟨62, _⟩ => ⟨S640000x1, .i32⟩
  | .hbm, ⟨63, _⟩ => ⟨S40000x128, .f32⟩
  | .hbm, ⟨64, _⟩ => ⟨S40000x128, .f32⟩
  | .hbm, ⟨65, _⟩ => ⟨S40000x128, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S_, .i32⟩
  | .hbm, ⟨70, _⟩ => ⟨S640000, .i32⟩
  | .hbm, ⟨71, _⟩ => ⟨S640000, .i32⟩
  | .hbm, ⟨72, _⟩ => ⟨S640000, .i32⟩
  | .hbm, ⟨73, _⟩ => ⟨S640000x1, .i32⟩
  | .hbm, ⟨74, _⟩ => ⟨S640000x128, .f32⟩
  | .hbm, ⟨75, _⟩ => ⟨S640000x1, .f32⟩
  | .hbm, ⟨76, _⟩ => ⟨S640000x128, .f32⟩
  | .hbm, ⟨77, _⟩ => ⟨S640000x128, .f32⟩
  | .hbm, ⟨78, _⟩ => ⟨S_, .f32⟩
  | .hbm, ⟨79, _⟩ => ⟨S40000x128, .f32⟩
  | .hbm, ⟨80, _⟩ => ⟨S640000x1, .i32⟩
  | .hbm, ⟨81, _⟩ => ⟨S40000x128, .f32⟩
  | .hbm, ⟨82, _⟩ => ⟨S40000x128, .f32⟩
  | .hbm, ⟨83, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S640000_S640000x1_0 : S640000.BroadcastsInDim S640000x1 (![0] : Fin 1 → Fin S640000x1.rank)
  bcast_S_S640000 : S_.BroadcastsInDim S640000 (![] : Fin 0 → Fin S640000.rank)
  shapeCasts_S40000_S40000x1 : S40000.ShapeCasts S40000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S40000x128.size a
  hwx2_2 : ∀ i : grid2.Coords, EltTy.bits .f32 = 32 ∨ (Rect.block (s := S40000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S40000x128.size a
  hwx3_1 : ∀ i : grid3.Coords, EltTy.bits .f32 = 32 ∨ (Rect.block (s := S40000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S40000x1.size a
  hwx3_2 : ∀ i : grid3.Coords, EltTy.bits .f32 = 32 ∨ (Rect.block (s := S40000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S40000x128.size a
  hwx3_4 : ∀ i : grid3.Coords, EltTy.bits .f32 = 32 ∨ (Rect.block (s := S40000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S40000x128.size a
  hwx4_3 : ∀ i : grid4.Coords, EltTy.bits .f32 = 32 ∨ (Rect.block (s := S40000x128) S5000x128.size (cc4_transform_3 i) (hinb4_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S40000x128, .f32⟩
  | 1 => ⟨S2x640000, .i32⟩
  | 2 => ⟨S640000, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S40000x128, .f32⟩
  | 14 => ⟨S_, .f32⟩
  | 15 => ⟨S40000, .f32⟩
  | 16 => ⟨S640000x1, .i32⟩
  | 17 => ⟨S40000, .f32⟩
  | 18 => ⟨S_, .f32⟩
  | 19 => ⟨S40000, .f32⟩
  | 20 => ⟨S40000, .f32⟩
  | 21 => ⟨S40000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S640000, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000, .f32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S640000x1, .f32⟩
  | 52 => ⟨S640000x128, .f32⟩
  | 53 => ⟨S640000x128, .f32⟩
  | 54 => ⟨S_, .f32⟩
  | 55 => ⟨S40000x128, .f32⟩
  | 56 => ⟨S640000x1, .i32⟩
  | 57 => ⟨S40000x128, .f32⟩
  | 58 => ⟨S40000, .f32⟩
  | 59 => ⟨S40000x1, .f32⟩
  | 60 => ⟨S40000x128, .f32⟩
  | 61 => ⟨S40000x128, .f32⟩
  | 62 => ⟨S40000x128, .f32⟩
  | 63 => ⟨S1x128, .f32⟩
  | 64 => ⟨S40000x128, .f32⟩
  | 65 => ⟨S40000x128, .f32⟩
  | 66 => ⟨S_, .f32⟩
  | 67 => ⟨S40000x128, .f32⟩
  | 68 => ⟨S40000x128, .f32⟩
  | 69 => ⟨S40000x128, .f32⟩
  | 70 => ⟨S_, .f32⟩
  | 71 => ⟨S40000, .f32⟩
  | 72 => ⟨S640000x1, .i32⟩
  | 73 => ⟨S40000, .f32⟩
  | 74 => ⟨S_, .f32⟩
  | 75 => ⟨S40000, .f32⟩
  | 76 => ⟨S40000, .f32⟩
  | 77 => ⟨S40000, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000, .f32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S640000, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x1, .f32⟩
  | 108 => ⟨S640000x128, .f32⟩
  | 109 => ⟨S640000x128, .f32⟩
  | 110 => ⟨S_, .f32⟩
  | 111 => ⟨S40000x128, .f32⟩
  | 112 => ⟨S640000x1, .i32⟩
  | 113 => ⟨S40000x128, .f32⟩
  | 114 => ⟨S40000, .f32⟩
  | 115 => ⟨S40000x1, .f32⟩
  | 116 => ⟨S40000x128, .f32⟩
  | 117 => ⟨S40000x128, .f32⟩
  | 118 => ⟨S40000x128, .f32⟩
  | 119 => ⟨S1x128, .f32⟩
  | 120 => ⟨S40000x128, .f32⟩
  | 121 => ⟨S40000x128, .f32⟩
  | 122 => ⟨S_, .f32⟩
  | 123 => ⟨S40000x128, .f32⟩
  | 124 => ⟨S40000x128, .f32⟩
  | 125 => ⟨S_, .f32⟩
  | 126 => ⟨S40000, .f32⟩
  | 127 => ⟨S40000x1, .f32⟩
  | _ => ⟨S40000x128, .f32⟩

abbrev hbmTy0_1 (i : Nat) : BufTy := match i % 128 with
  | 0 => ⟨S_, .f32⟩
  | 1 => ⟨S40000x1, .f32⟩
  | 2 => ⟨S40000x1, .f32⟩
  | 3 => ⟨S40000x128, .f32⟩
  | 4 => ⟨S40000x128, .f32⟩
  | 5 => ⟨S40000x128, .f32⟩
  | 6 => ⟨S_, .f32⟩
  | 7 => ⟨S40000, .f32⟩
  | 8 => ⟨S40000x1, .f32⟩
  | 9 => ⟨S_, .f32⟩
  | 10 => ⟨S40000x1, .f32⟩
  | 11 => ⟨S40000x1, .f32⟩
  | 12 => ⟨S40000x128, .f32⟩
  | 13 => ⟨S40000x128, .f32⟩
  | 14 => ⟨S_, .f32⟩
  | 15 => ⟨S40000x1, .f32⟩
  | 16 => ⟨S40000x1, .f32⟩
  | 17 => ⟨S40000x1, .f32⟩
  | 18 => ⟨S40000x128, .f32⟩
  | 19 => ⟨S40000x128, .f32⟩
  | 20 => ⟨S1x128, .f32⟩
  | 21 => ⟨S40000x128, .f32⟩
  | 22 => ⟨S40000x128, .f32⟩
  | 23 => ⟨S1x128, .f32⟩
  | 24 => ⟨S40000x128, .f32⟩
  | 25 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_18 : Ref sig .tc := ⟨.hbm, 134, rfl⟩
abbrev main_v101 : Ref sig .tc := ⟨.hbm, 135, rfl⟩
abbrev main_v102 : Ref sig .tc := ⟨.hbm, 136, rfl⟩
abbrev main_cst_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  dot_S40000x128_S128x128_S40000x128_1_0_0_1_n_n_wf : DotDims.WF S40000x128 S128x128 S40000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.Spec.lean ====
/-
  The three dense stages of the graph encoder, as whole-array functions on the extended reals, entry by entry.
  A node-feature array has 40000 rows (nodes) and 128 columns (features).
    * `proj x w`: the dense projection, entry (r, q) = Σ_k x(r, k) · w(k, q).
    * `combine a h s b`: the aggregated messages plus the self-loop term plus the bias, clamped at zero:
      entry (r, q) = max (a(r, q) + h(r, q) · s(r) + b(q)) 0, the per-node factor `s` given as a column and the
      bias `b` as a row.
    * `layerNorm h g b`: each row centred by its mean, scaled by the reciprocal square root of its variance
      plus ε, then by the per-feature gain `g` and shifted by `b`: the mean and the variance are the row's sum and
      the row's sum of squared deviations divided by 128.
-/
import Idealize.ShloMosaic.PureOps.Ideal
import Idealize.ShloMosaic.Lib.ValueIdx

noncomputable section

namespace Cert.Spec

open Idealize.ShloMosaic Idealize.ShloMosaic.ValueIdx

/-- Node features: one row per node. -/
abbrev NodeFeat : Shape := ⟨2, ![40000, 128]⟩
/-- A square weight matrix. -/
abbrev Weight : Shape := ⟨2, ![128, 128]⟩
/-- One number per node, as a column. -/
abbrev NodeCol : Shape := ⟨2, ![40000, 1]⟩
/-- One number per feature, as a row. -/
abbrev FeatRow : Shape := ⟨2, ![1, 128]⟩

/-- The dense projection `x · w`. -/
def proj (x : FVec Ideal NodeFeat .f32) (w : FVec Ideal Weight .f32) : FVec Ideal NodeFeat .f32 :=
  fun i => ∑ k : Fin 128, x (ix2 (i 0) k) * w (ix2 k (i 1))

/-- Messages plus self-loop plus bias, clamped at zero. -/
def combine (a h : FVec Ideal NodeFeat .f32) (s : FVec Ideal NodeCol .f32) (b : FVec Ideal FeatRow .f32) :
    FVec Ideal NodeFeat .f32 :=
  fun i => max (a i + h i * s (ix2 (i 0) 0) + b (ix2 0 (i 1))) (Ideal.ofBits .f32 0x00000000#32)

/-- A row's mean: its sum over the 128 features, divided by 128. -/
def rowMean (h : FVec Ideal NodeFeat .f32) (r : Fin 40000) : EReal :=
  Ideal.div (∑ k : Fin 128, h (ix2 r k)) (Ideal.ofBits .f32 0x43000000#32)

/-- A row's variance: the sum of its squared deviations from the mean, divided by 128. -/
def rowVar (h : FVec Ideal NodeFeat .f32) (r : Fin 40000) : EReal :=
  Ideal.div (∑ k : Fin 128, (h (ix2 r k) - rowMean h r) * (h (ix2 r k) - rowMean h r)) (Ideal.ofBits .f32 0x43000000#32)

/-- Layer normalisation over the feature axis with gain `g` and shift `b` (each a row). -/
def layerNorm (h : FVec Ideal NodeFeat .f32) (g b : FVec Ideal FeatRow .f32) : FVec Ideal NodeFeat .f32 :=
  fun i => (h i - rowMean h (i 0)) * Ideal.rsqrt (rowVar h (i 0) + Ideal.ofBits .f32 0x3727C5AC#32) * g (ix2 0 (i 1))
    + b (ix2 0 (i 1))

end Cert.Spec

end
-- ==== Proof.Model.lean ====
/-
  The graph encoder as ONE function of its nine arguments, at the extended reals.
  The edge list `e` (row 0: source nodes, row 1: target nodes; a negative index counts from the end) and the edge
  weights `ew` give, once and for all layers: the weighted in-degree plus one per node and its reciprocal square root
  `dinv`; the per-edge factor `norm` = dinv(source) · weight · dinv(target); and `aggregate h`, which gathers the
  source rows of a node-feature array `h`, scales each by its edge's factor and adds it into its target's row.
  A layer is `Spec.combine` of the aggregated projection, the projection itself, the self-loop factor dinv² (as a
  column) and the bias (as a row); the encoder is two layers followed by `Spec.layerNorm`.
  The gather / scatter part is kept as the host operations both programs run, with the dimension records of the
  reference program.
-/
import proofs.«169304_j7559142441000_1_alg».proof.Proof.Gen.ReferenceIdeal
import proofs.«169304_j7559142441000_1_alg».proof.Proof.Spec

noncomputable section

namespace Cert.Model

open Idealize.ShloMosaic Idealize.ShloMosaic.TcCoe Cert.ReferenceIdeal Cert.ReferenceIdeal.Facts₀ Cert.Spec

variable {F : FTy → Type} [FloatOps F]

/-- The edges' source nodes: row 0 of the edge list. -/
def src (e : Vec F S2x640000 .i32) : Vec F S640000 .i32 :=
  shapeCast _ (extractStridedSlice S1x640000 ![0, 0] e slices_S2x640000_S1x640000_0_0) shapeCasts_S1x640000_S640000

/-- The edges' target nodes: row 1 of the edge list. -/
def dst (e : Vec F S2x640000 .i32) : Vec F S640000 .i32 :=
  shapeCast _ (extractStridedSlice S1x640000 ![1, 0] e slices_S2x640000_S1x640000_1_0) shapeCasts_S1x640000_S640000

/-- A negative node index counts from the end: 40000 is added to it. -/
def wrap (v : Vec F S640000 .i32) : Vec F S640000 .i32 :=
  select (cmpi .slt v (broadcastInDim S640000 ![] bcast_S_S640000 (constantI S_ 32 0#32)))
    (addi v (broadcastInDim S640000 ![] bcast_S_S640000 (constantI S_ 32 40000#32))) v

/-- The reciprocal square root of each node's weighted in-degree plus one. -/
def dinv (e : Vec F S2x640000 .i32) (ew : Vec F S640000 .f32) : Vec F S40000 .f32 :=
  Host.rsqrt (addf (Host.scatterAdd scatter_S40000_S640000x1_S640000_n_0_0_1
      (broadcastInDim S40000 ![] bcast_S_S40000 (constant S_ .f32 0x00000000#32))
      (broadcastInDim S640000x1 ![0] bcast_S640000_S640000x1_0 (dst e)) ew)
    (broadcastInDim S40000 ![] bcast_S_S40000 (constant S_ .f32 0x3F800000#32)))

/-- The per-edge factor dinv(source) · weight · dinv(target). -/
def norm (e : Vec F S2x640000 .i32) (ew : Vec F S640000 .f32) : Vec F S640000 .f32 :=
  mulf (mulf (Host.gather gather_S40000_S640000x1_S640000_n_0_n_n_0_1_1 (dinv e ew)
      (broadcastInDim S640000x1 ![0] bcast_S640000_S640000x1_0 (wrap (src e)))) ew)
    (Host.gather gather_S40000_S640000x1_S640000_n_0_n_n_0_1_1 (dinv e ew)
      (broadcastInDim S640000x1 ![0] bcast_S640000_S640000x1_0 (wrap (dst e))))

/-- Gather the source rows of `h`, scale each by its edge's factor, add it into its target's row. -/
def aggregate (h : Vec F S40000x128 .f32) (e : Vec F S2x640000 .i32) (ew : Vec F S640000 .f32) : Vec F S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 (dst e))
    (mulf (Host.gather gather_S40000x128_S640000x1_S640000x128_1_0_n_n_0_1_1128 h
        (broadcastInDim S640000x1 ![0] bcast_S640000_S640000x1_0 (wrap (src e))))
      (broadcastInDim S640000x128 ![0, 1] bcast_S640000x1_S640000x128_0_1
        (broadcastInDim S640000x1 ![0] bcast_S640000_S640000x1_0 (norm e ew))))

/-- The self-loop factor dinv², one per node, as a column. -/
def selfCol (e : Vec F S2x640000 .i32) (ew : Vec F S640000 .f32) : Vec F NodeCol .f32 :=
  shapeCast NodeCol (mulf (dinv e ew) (dinv e ew)) (by decide)

/-- A per-feature vector as a row. -/
def rowOf (b : Vec F S128 .f32) : Vec F FeatRow .f32 := shapeCast FeatRow b (by decide)

/-- One layer: project, aggregate over the edges, add the self-loop term and the bias, clamp at zero. -/
def layer (x : Vec Ideal S40000x128 .f32) (w : Vec Ideal S128x128 .f32) (b : Vec Ideal S128 .f32)
    (e : Vec Ideal S2x640000 .i32) (ew : Vec Ideal S640000 .f32) : Vec Ideal S40000x128 .f32 :=
  combine (aggregate (proj x w) e ew) (proj x w) (selfCol e ew) (rowOf b)

/-- The encoder: two layers, then layer normalisation. -/
def encoder (x : Vec Ideal S40000x128 .f32) (e : Vec Ideal S2x640000 .i32) (ew : Vec Ideal S640000 .f32)
    (w1 : Vec Ideal S128x128 .f32) (b1 : Vec Ideal S128 .f32) (w2 : Vec Ideal S128x128 .f32) (b2 : Vec Ideal S128 .f32)
    (g be : Vec Ideal S128 .f32) : Vec Ideal S40000x128 .f32 :=
  layerNorm (layer (layer x w1 b1 e ew) w2 b2 e ew) (rowOf g) (rowOf be)

end Cert.Model

end
-- ==== Proof.KHostBase.lean ====
/-
  The host stretches of the kernel program, read back. Between the five launches the program runs host operations on
  the edge list and the edge weights; nothing they compute is touched by a launch, and no launch's operand is
  rewritten afterwards, so each buffer a launch or a later stretch reads still holds what the stretch that
  computed it left there:
    * after the first stretch: the source and target node lists, the per-edge factor `Model.norm`, the self-loop
      column `Model.selfCol`, the bias / gain / shift vectors laid out as rows, and the untouched arguments;
    * a later stretch or launch that does not write a buffer leaves it as it was.
-/
import proofs.«169304_j7559142441000_1_alg».proof.Proof.Gen.KernelIdeal.Frame
import proofs.«169304_j7559142441000_1_alg».proof.Proof.Model
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen

variable (m : (ℓ : Loc nD τ sig) → Buf (Elt Ideal) ℓ) (ρ : Dev nD → PrngReg)

/-! ## What the first stretch leaves -/

/-- The edges' source nodes. -/
theorem at1_main_v1 (c : Dev nD) : W1 m ρ c (Proc.devRef .tc main_v1) = Cert.Model.src (m ((c : Thread nD τ).loc main_arg1)) := by
  show StableHlo.after hostOps0 (W0 m ρ c) (Proc.devRef .tc main_v1) = _
  after_results_simp <;> rfl

/-- The edges' target nodes. -/
theorem at1_main_v3 (c : Dev nD) : W1 m ρ c (Proc.devRef .tc main_v3) = Cert.Model.dst (m ((c : Thread nD τ).loc main_arg1)) := by
  show StableHlo.after hostOps0 (W0 m ρ c) (Proc.devRef .tc main_v3) = _
  after_results_simp <;> rfl

/-- The per-edge factor dinv(source) · weight · dinv(target). -/
theorem at1_main_v25 (c : Dev nD) : W1 m ρ c (Proc.devRef .tc main_v25)
    = Cert.Model.norm (m ((c : Thread nD τ).loc main_arg1)) (m ((c : Thread nD τ).loc main_arg2)) := by
  show StableHlo.after hostOps0 (W0 m ρ c) (Proc.devRef .tc main_v25) = _
  after_results_simp <;> rfl

/-- The self-loop factor dinv² as a column. -/
theorem at1_main_v27 (c : Dev nD) : W1 m ρ c (Proc.devRef .tc main_v27)
    = Cert.Model.selfCol (m ((c : Thread nD τ).loc main_arg1)) (m ((c : Thread nD τ).loc main_arg2)) := by
  show StableHlo.after hostOps0 (W0 m ρ c) (Proc.devRef .tc main_v27) = _
  after_results_simp <;> rfl

/-- The first layer's bias as a row. -/
theorem at1_main_v28 (c : Dev nD) : W1 m ρ c (Proc.devRef .tc main_v28) = Cert.Model.rowOf (m ((c : Thread nD τ).loc main_arg4)) := by
  show StableHlo.after hostOps0 (W0 m ρ c) (Proc.devRef .tc main_v28) = _
  after_results_simp <;> rfl

/-- The second layer's bias as a row. -/
theorem at1_main_v29 (c : Dev nD) : W1 m ρ c (Proc.devRef .tc main_v29) = Cert.Model.rowOf (m ((c : Thread nD τ).loc main_arg6)) := by
  show StableHlo.after hostOps0 (W0 m ρ c) (Proc.devRef .tc main_v29) = _
  after_results_simp <;> rfl

/-- The normalisation's gain as a row. -/
theorem at1_main_v30 (c : Dev nD) : W1 m ρ c (Proc.devRef .tc main_v30) = Cert.Model.rowOf (m ((c : Thread nD τ).loc main_arg7)) := by
  show StableHlo.after hostOps0 (W0 m ρ c) (Proc.devRef .tc main_v30) = _
  after_results_simp <;> rfl

/-- The normalisation's shift as a row. -/
theorem at1_main_v31 (c : Dev nD) : W1 m ρ c (Proc.devRef .tc main_v31) = Cert.Model.rowOf (m ((c : Thread nD τ).loc main_arg8)) := by
  show StableHlo.after hostOps0 (W0 m ρ c) (Proc.devRef .tc main_v31) = _
  after_results_simp <;> rfl

/-- The node features are not written. -/
theorem at1_main_arg0 (c : Dev nD) : W1 m ρ c (Proc.devRef .tc main_arg0) = m ((c : Thread nD τ).loc main_arg0) := by
  show StableHlo.after hostOps0 (W0 m ρ c) (Proc.devRef .tc main_arg0) = _
  after_results_simp <;> rfl

/-- The first weight matrix is not written. -/
theorem at1_main_arg3 (c : Dev nD) : W1 m ρ c (Proc.devRef .tc main_arg3) = m ((c : Thread nD τ).loc main_arg3) := by
  show StableHlo.after hostOps0 (W0 m ρ c) (Proc.devRef .tc main_arg3) = _
  after_results_simp <;> rfl

/-- The second weight matrix is not written. -/
theorem at1_main_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-! ## The second stretch (between launches 0 and 1) writes none of these -/

theorem thru1_main_v1 (c : Dev nD) : W3 m ρ c (Proc.devRef .tc main_v1) = W2 m ρ c (Proc.devRef .tc main_v1) := by
  show StableHlo.after hostOps1 (W2 m ρ c) (Proc.devRef .tc main_v1) = _
  after_results <;> rfl
theorem thru1_main_v3 (c : Dev nD) : W3 m ρ c (Proc.devRef .tc main_v3) = W2 m ρ c (Proc.devRef .tc main_v3) := by
  show StableHlo.after hostOps1 (W2 m ρ c) (Proc.devRef .tc main_v3) = _
  after_results <;> rfl
theorem thru1_main_v25 (c : Dev nD) : W3 m ρ c (Proc.devRef .tc main_v25) = W2 m ρ c (Proc.devRef .tc main_v25) := by
  show StableHlo.after hostOps1 (W2 m ρ c) (Proc.devRef .tc main_v25) = _
  after_results <;> rfl
theorem thru1_main_v27 (c : Dev nD) : W3 m ρ c (Proc.devRef .tc main_v27) = W2 m ρ c (Proc.devRef .tc main_v27) := by
  show StableHlo.after hostOps1 (W2 m ρ c) (Proc.devRef .tc main_v27) = _
  after_results <;> rfl
theorem thru1_main_v28 (c : Dev nD) : W3 m ρ c (Proc.devRef .tc main_v28) = W2 m ρ c (Proc.devRef .tc main_v28) := by
  show StableHlo.after hostOps1 (W2 m ρ c) (Proc.devRef .tc main_v28) = _
  after_results <;> rfl
theorem thru1_main_v29 (c : Dev nD) : W3 m ρ c (Proc.devRef .tc main_v29) = W2 m ρ c (Proc.devRef .tc main_v29) := by
  show StableHlo.after hostOps1 (W2 m ρ c) (Proc.devRef .tc main_v29) = _
  after_results <;> rfl
theorem thru1_main_v30 (c : Dev nD) : W3 m ρ c (Proc.devRef .tc main_v30) = W2 m ρ c (Proc.devRef .tc main_v30) := by
  show StableHlo.after hostOps1 (W2 m ρ c) (Proc.devRef .tc main_v30) = _
  after_results <;> rfl
theorem thru1_main_v31 (c : Dev nD) : W3 m ρ c (Proc.devRef .tc main_v31) = W2 m ρ c (Proc.devRef .tc main_v31) := by
  show StableHlo.after hostOps1 (W2 m ρ c) (Proc.devRef .tc main_v31) = _
  after_results <;> rfl
theorem thru1_main_v32 (c : Dev nD) : W3 m ρ c (Proc.devRef .tc main_v32) = W2 m ρ c (Proc.devRef .tc main_v32) := by
  show StableHlo.after hostOps1 (W2 m ρ c) (Proc.devRef .tc main_v32) = _
  after_results <;> rfl
theorem thru1_main_arg5 (c : Dev nD) : W3 m ρ c (Proc.devRef .tc main_arg5) = W2 m ρ c (Proc.devRef .tc main_arg5) := by
  show StableHlo.after hostOps1 (W2 m ρ c) (Proc.devRef .tc main_arg5) = _
  after_results <;> rfl

/-! ## The third stretch (between launches 2 and 3) writes none of these -/

theorem thru3_main_v27 (c : Dev nD) : W6 m ρ c (Proc.devRef .tc main_v27) = W5 m ρ c (Proc.devRef .tc main_v27) := by
  show StableHlo.after hostOps3 (W5 m ρ c) (Proc.devRef .tc main_v27) = _
  after_results <;> rfl
theorem thru3_main_v29 (c : Dev nD) : W6 m ρ c (Proc.devRef .tc main_v29) = W5 m ρ c (Proc.devRef .tc main_v29) := by
  show StableHlo.after hostOps3 (W5 m ρ c) (Proc.devRef .tc main_v29) = _
  after_results <;> rfl
theorem thru3_main_v30 (c : Dev nD) : W6 m ρ c (Proc.devRef .tc main_v30) = W5 m ρ c (Proc.devRef .tc main_v30) := by
  show StableHlo.after hostOps3 (W5 m ρ c) (Proc.devRef .tc main_v30) = _
  after_results <;> rfl
theorem thru3_main_v31 (c : Dev nD) : W6 m ρ c (Proc.devRef .tc main_v31) = W5 m ρ c (Proc.devRef .tc main_v31) := by
  show StableHlo.after hostOps3 (W5 m ρ c) (Proc.devRef .tc main_v31) = _
  after_results <;> rfl
theorem thru3_main_v47 (c : Dev nD) : W6 m ρ c (Proc.devRef .tc main_v47) = W5 m ρ c (Proc.devRef .tc main_v47) := by
  show StableHlo.after hostOps3 (W5 m ρ c) (Proc.devRef .tc main_v47) = _
  after_results <;> rfl

/-! ## What the second and third stretches compute: the aggregation over the edges -/

/-- The aggregation over the edges with the target list, the source list and the per-edge factor given as arrays:
    gather the source rows of `h`, scale each by its edge's factor, add it into its target's row. -/
def aggregateWith {F : FTy → Type} [FloatOps F] (h : Vec F Cert.ReferenceIdeal.S40000x128 .f32)
    (dstv srcv : Vec F Cert.ReferenceIdeal.S640000 .i32) (normv : Vec F Cert.ReferenceIdeal.S640000 .f32) :
    Vec F Cert.ReferenceIdeal.S40000x128 .f32 :=
  Host.scatterAdd Cert.ReferenceIdeal.scatter_S40000x128_S640000x1_S640000x128_1_0_0_1
    (broadcastInDim Cert.ReferenceIdeal.S40000x128 ![] Cert.ReferenceIdeal.Facts₀.bcast_S_S40000x128 (constant Cert.ReferenceIdeal.S_ .f32 0x00000000#32))
    (broadcastInDim Cert.ReferenceIdeal.S640000x1 ![0] Cert.ReferenceIdeal.Facts₀.bcast_S640000_S640000x1_0 dstv)
    (mulf (Host.gather Cert.ReferenceIdeal.gather_S40000x128_S640000x1_S640000x128_1_0_n_n_0_1_1128 h
        (broadcastInDim Cert.ReferenceIdeal.S640000x1 ![0] Cert.ReferenceIdeal.Facts₀.bcast_S640000_S640000x1_0 (Cert.Model.wrap srcv)))
      (broadcastInDim Cert.ReferenceIdeal.S640000x128 ![0, 1] Cert.ReferenceIdeal.Facts₀.bcast_S640000x1_S640000x128_0_1
        (broadcastInDim Cert.ReferenceIdeal.S640000x1 ![0] Cert.ReferenceIdeal.Facts₀.bcast_S640000_S640000x1_0 normv)))

/-- `Model.aggregate` is that aggregation with the lists and the factor computed from the edge data. -/
theorem aggregate_eq (h : Vec Ideal Cert.ReferenceIdeal.S40000x128 .f32) (e : Vec Ideal Cert.ReferenceIdeal.S2x640000 .i32)
    (ew : Vec Ideal Cert.ReferenceIdeal.S640000 .f32) :
    Cert.Model.aggregate h e ew = aggregateWith h (Cert.Model.dst e) (Cert.Model.src e) (Cert.Model.norm e ew) := rfl

/-- The second stretch aggregates launch 0's result with the edge data as they stand at its entry. -/
theorem agg1 (c : Dev nD) : W3 m ρ c (Proc.devRef .tc main_v45)
    = aggregateWith (W2 m ρ c (Proc.devRef .tc main_v32)) (W2 m ρ c (Proc.devRef .tc main_v3))
        (W2 m ρ c (Proc.devRef .tc main_v1)) (W2 m ρ c (Proc.devRef .tc main_v25)) := by
  show StableHlo.after hostOps1 (W2 m ρ c) (Proc.devRef .tc main_v45) = _
  after_results_simp <;> rfl

/-- The third stretch aggregates launch 2's result with the edge data as they stand at its entry. -/
theorem agg3 (c : Dev nD) : W6 m ρ c (Proc.devRef .tc main_v60)
    = aggregateWith (W5 m ρ c (Proc.devRef .tc main_v47)) (W5 m ρ c (Proc.devRef .tc main_v3))
        (W5 m ρ c (Proc.devRef .tc main_v1)) (W5 m ρ c (Proc.devRef .tc main_v25)) := by
  show StableHlo.after hostOps3 (W5 m ρ c) (Proc.devRef .tc main_v60) = _
  after_results_simp <;> rfl

end Cert.KernelIdeal.Val

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KProj.lean ====
/-
  The two dense-projection launches (a node-feature array times a square weight matrix), each over eight row blocks
  of 5000 nodes with the weight matrix held whole: what a grid point writes back is its block of `Spec.proj` of the
  two arrays the launch reads — entry (p, q) of the block is the sum over k of the feature block's (p, k) times the
  weight's (k, q), and the feature block's row p is the array's row (block row + p) —, and the eight blocks tile the
  40000 rows, so the result array ends holding `Spec.proj` of them.
-/
import proofs.«169304_j7559142441000_1_alg».proof.Proof.Gen.KernelIdeal.Frame
import proofs.«169304_j7559142441000_1_alg».proof.Proof.Spec
import proofs.«169304_j7559142441000_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

/-- The origin of a rank-2 block, as a function. -/
theorem origin_proj : (![0, 0] : Fin 2 → Nat) = fun _ => 0 := funext fun a => by fin_cases a <;> rfl

/-- The product's dimension numbers are those of a plain row-by-column product: axis 1 of the left operand against
    axis 0 of the right one, no batch axes. -/
theorem plain_proj : PlainDot.IsPlain (R := 5000) (K := 128) (C := 128) dot_S5000x128_S128x128_S5000x128_1_0_0_1_n_n :=
  ⟨rfl, rfl, rfl, rfl, rfl, rfl⟩

/-- The body's arithmetic of launch 0 at an entry (p, q) of a block: the product into a zero accumulator is the sum over
    k of the feature block's (p, k) times the weight's (k, q). -/
theorem proj_entry0 (x0 : Vec Ideal S5000x128 .f32) (x1 : Vec Ideal S128x128 .f32) (j : S5000x128.Idx) :
    k0_pay1 x0 x1 j = ∑ k : Fin 128, x0 (ix2 (j 0) k) * x1 (ix2 k (j 1)) := by
  unfold k0_pay1
  have h := PlainDot.matmul_zero_apply (φ₁ := .f32) (φ₂ := .f32) plain_proj none x0 x1 (j 0) (j 1)
  exact Eq.trans (congrArg _ (eq_ix2 j)) h

/-- The same for launch 2, whose body first casts its feature block to its own shape. -/
theorem proj_entry2 (x0 : Vec Ideal S5000x128 .f32) (x1 : Vec Ideal S128x128 .f32) (j : S5000x128.Idx) :
    k2_pay1 x0 x1 j = ∑ k : Fin 128, x0 (ix2 (j 0) k) * x1 (ix2 k (j 1)) := by
  unfold k2_pay1
  simp only [shapeCast_self]
  have h := PlainDot.matmul_zero_apply (φ₁ := .f32) (φ₂ := .f32) plain_proj none x0 x1 (j 0) (j 1)
  exact Eq.trans (congrArg _ (eq_ix2 j)) h

/-! ## Launch 0 -/

section Launch0
variable (V : (c : Dev nD) → (b : Ref sig .tc) → Buf (Elt Ideal) ((c : Thread nD τ).loc b))

/-- The two arrays launch 0 reads, as the launch finds them, each at its literal shape. -/
abbrev feat0 (c : Dev nD) : FVec Ideal S40000x128 .f32 := V c main_arg0
abbrev wts0 (c : Dev nD) : FVec Ideal S128x128 .f32 := V c main_arg3

/-- The three index maps of launch 0, decided over its eight grid points: the feature operand and the result move
    together down the rows, nothing moves across the columns, and the weight matrix stays put. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every one of the eight row blocks is some grid point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What grid point `t` writes back is block `t` of `Spec.proj` of the launch's two arrays: the two sums agree term
    by term, the feature block's entry (p, k) being the array's (block row + p, k) and the weight block being the whole
    matrix. -/
theorem flushed0 (c : Dev nD) (t : Fin cfg0.N) :
    (dat0 V c).flushed 2 t = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero origin_proj]
  simp only [View.ld_unit_zero (S := S5000x128) origin_proj, View.ld_unit_zero (S := S128x128) origin_proj]
  obtain ⟨e00, e01, e10, e11, e21, e20⟩ := idx_facts0 t
  funext j
  show k0_pay1 (iblk0 V c 0 t) (iblk0 V c 1 t) j
    = proj (V c main_arg0) (V c main_arg3) (((cfg0.win 2).blk t).view.emb j)
  refine (proj_entry0 _ _ j).trans ?_
  show ∑ k : Fin 128, feat0 V c (((cfg0.win 0).blk t).view.emb (ix2 (n0 := 5000) (n1 := 128) (j 0) k))
        * wts0 V c (((cfg0.win 1).blk t).view.emb (ix2 (n0 := 128) (n1 := 128) k (j 1)))
    = ∑ k : Fin 128, feat0 V c (ix2 (n0 := 40000) (n1 := 128) ((((cfg0.win 2).blk t).view.emb j : S40000x128.Idx) 0) k)
        * wts0 V c (ix2 (n0 := 128) (n1 := 128) k ((((cfg0.win 2).blk t).view.emb j : S40000x128.Idx) 1))
  refine Finset.sum_congr rfl fun k _ => ?_
  have hX : ((cfg0.win 0).blk t).view.emb (ix2 (n0 := 5000) (n1 := 128) (j 0) k)
      = ix2 (n0 := 40000) (n1 := 128) ((((cfg0.win 2).blk t).view.emb j : S40000x128.Idx) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hW : ((cfg0.win 1).blk t).view.emb (ix2 (n0 := 128) (n1 := 128) k (j 1))
      = ix2 (n0 := 128) (n1 := 128) k ((((cfg0.win 2).blk t).view.emb j : S40000x128.Idx) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have rX := congrArg (feat0 V c) hX
  have rW := congrArg (wts0 V c) hW
  exact congrArg₂ (· * ·) rX rW

/-- An index of the result array lies in point `t`'s block iff each coordinate lies in the block's range on its axis. -/
theorem mem_blk0 (t : Fin cfg0.N) (i : S40000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The eight row blocks tile the 40000 rows: row r lies in block r / 5000. -/
theorem cover0 (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array of launch 0 after its eight points. -/
theorem final0 (c : Dev nD) : (dat0 V c).arrAt 2 cfg0.N = proj (V c main_arg0) (V c main_arg3) :=
  (dat0 V c).arrAt_eq_of_cover 2 _ (fun t _ => flushed0 V c t) (cover0)

end Launch0

/-! ## Launch 2 -/

section Launch2
variable (V : (c : Dev nD) → (b : Ref sig .tc) → Buf (Elt Ideal) ((c : Thread nD τ).loc b))

/-- The two arrays launch 2 reads, as the launch finds them, each at its literal shape. -/
abbrev feat2 (c : Dev nD) : FVec Ideal S40000x128 .f32 := V c main_v46
abbrev wts2 (c : Dev nD) : FVec Ideal S128x128 .f32 := V c main_arg5

/-- The three index maps of launch 2, decided over its eight grid points: the feature operand and the result move
    together down the rows, nothing moves across the columns, and the weight matrix stays put. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 7 :=
  (by decide +kernel : ∀ t : Fin grid2.N, _)

/-- Every one of the eight row blocks is some grid point's. -/
theorem idx_onto2 : ∀ q0 : Fin 8, ∃ t : Fin cfg2.N, win2_2.index t = ![q0.val, 0] :=
  (by decide +kernel : ∀ q0 : Fin 8, ∃ t : Fin grid2.N, win2_2.index t = ![q0.val, 0])

/-- What grid point `t` writes back is block `t` of `Spec.proj` of the launch's two arrays: the two sums agree term
    by term, the feature block's entry (p, k) being the array's (block row + p, k) and the weight block being the whole
    matrix. -/
theorem flushed2 (c : Dev nD) (t : Fin cfg2.N) :
    (dat2 V c).flushed 2 t = ((cfg2.win 2).blk t).view.read (Elt Ideal) (proj (V c main_v46) (V c main_arg5)) := by
  show (cfg2.win 2).cut (grid2.coords t) ((dat2 V c).after 2 t) = _
  rw [after2_2]
  unfold out2_2
  rw [View.canon_unit_zero origin_proj]
  simp only [View.ld_unit_zero (S := S5000x128) origin_proj, View.ld_unit_zero (S := S128x128) origin_proj]
  obtain ⟨e00, e01, e10, e11, e21, e20⟩ := idx_facts2 t
  funext j
  show k2_pay1 (iblk2 V c 0 t) (iblk2 V c 1 t) j
    = proj (V c main_v46) (V c main_arg5) (((cfg2.win 2).blk t).view.emb j)
  refine (proj_entry2 _ _ j).trans ?_
  show ∑ k : Fin 128, feat2 V c (((cfg2.win 0).blk t).view.emb (ix2 (n0 := 5000) (n1 := 128) (j 0) k))
        * wts2 V c (((cfg2.win 1).blk t).view.emb (ix2 (n0 := 128) (n1 := 128) k (j 1)))
    = ∑ k : Fin 128, feat2 V c (ix2 (n0 := 40000) (n1 := 128) ((((cfg2.win 2).blk t).view.emb j : S40000x128.Idx) 0) k)
        * wts2 V c (ix2 (n0 := 128) (n1 := 128) k ((((cfg2.win 2).blk t).view.emb j : S40000x128.Idx) 1))
  refine Finset.sum_congr rfl fun k _ => ?_
  have hX : ((cfg2.win 0).blk t).view.emb (ix2 (n0 := 5000) (n1 := 128) (j 0) k)
      = ix2 (n0 := 40000) (n1 := 128) ((((cfg2.win 2).blk t).view.emb j : S40000x128.Idx) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hW : ((cfg2.win 1).blk t).view.emb (ix2 (n0 := 128) (n1 := 128) k (j 1))
      = ix2 (n0 := 128) (n1 := 128) k ((((cfg2.win 2).blk t).view.emb j : S40000x128.Idx) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have rX := congrArg (feat2 V c) hX
  have rW := congrArg (wts2 V c) hW
  exact congrArg₂ (· * ·) rX rW

/-- An index of the result array lies in point `t`'s block iff each coordinate lies in the block's range on its axis. -/
theorem mem_blk2 (t : Fin cfg2.N) (i : S40000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v47).slice (win2_2.rect t)).set ↔ _
  rw [View.set_slice_whole, Rect.mem_set_unit]
  exact Iff.rfl

/-- The eight row blocks tile the 40000 rows: row r lies in block r / 5000. -/
theorem cover2 (i : S40000x128.Idx) :
    ∃ t : Fin cfg2.N, (cfg2.win 2).flush t = true ∧ i ∈ ((cfg2.win 2).blk t).view.set := by
  have hi0 : (i 0).val < 40000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array of launch 2 after its eight points. -/
theorem final2 (c : Dev nD) : (dat2 V c).arrAt 2 cfg2.N = proj (V c main_v46) (V c main_arg5) :=
  (dat2 V c).arrAt_eq_of_cover 2 _ (fun t _ => flushed2 V c t) (cover2)

end Launch2

end Cert.KernelIdeal.Val

end
-- ==== Proof.KCombine1.lean ====
/-
  The first "combine" launch (messages + self-loop term + bias, clamped at zero), over eight row blocks of 5000
  nodes: what a grid point writes back is its block of `Spec.combine` of the four arrays the launch reads, and the
  eight blocks tile the 40000 rows, so the result array ends holding `Spec.combine` of them.
-/
import proofs.«169304_j7559142441000_1_alg».proof.Proof.Gen.KernelIdeal.Frame
import proofs.«169304_j7559142441000_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

theorem hz2c : (![0, 0] : Fin 2 → Nat) = fun _ => 0 := funext fun a => by fin_cases a <;> rfl

/-- The body's arithmetic at an entry (p, q) of a block: the per-node factor is read in column 0 of row p, the bias
    in row 0 of column q. -/
theorem combine_entry1 (x0 x1 : Vec Ideal S5000x128 .f32) (x2 : Vec Ideal S5000x1 .f32) (x3 : Vec Ideal S1x128 .f32)
    (j : S5000x128.Idx) :
    k1_pay1 x0 x1 x2 x3 j
      = max (x0 j + x1 j * x2 (ix2 (j 0) 0) + x3 (ix2 0 (j 1))) (Ideal.ofBits .f32 0x00000000#32) := by
  unfold k1_pay1
  simp only [shapeCast_self]
  show max ((x0 j + x1 j * broadcastTo S5000x128 x2 _ j) + broadcastTo S5000x128 x3 _ j) _ = _
  rw [broadcastTo_apply x2 _ j (ix2 (j 0) 0) (fun a => match a with
        | ⟨0, _⟩ => by show (j 0).val = if (5000 : Nat) = 1 then 0 else (j 0).val; rw [if_neg (by decide)]
        | ⟨1, _⟩ => by show 0 = if (1 : Nat) = 1 then 0 else (j 1).val; rw [if_pos rfl]),
      broadcastTo_apply x3 _ j (ix2 0 (j 1)) (fun a => match a with
        | ⟨0, _⟩ => by show 0 = if (1 : Nat) = 1 then 0 else (j 0).val; rw [if_pos rfl]
        | ⟨1, _⟩ => by show (j 1).val = if (128 : Nat) = 1 then 0 else (j 1).val; rw [if_neg (by decide)])]
  rfl

/-! ## Launch 1 -/

section Launch1
variable (V : (c : Dev nD) → (b : Ref sig .tc) → Buf (Elt Ideal) ((c : Thread nD τ).loc b))

/-- The four arrays launch 1 reads, as the launch finds them, each at its literal shape. -/
abbrev msgs1 (c : Dev nD) : FVec Ideal S40000x128 .f32 := V c main_v45
abbrev feat1 (c : Dev nD) : FVec Ideal S40000x128 .f32 := V c main_v32
abbrev self1 (c : Dev nD) : FVec Ideal S40000x1 .f32 := V c main_v27
abbrev bias1 (c : Dev nD) : FVec Ideal S1x128 .f32 := V c main_v28

/-- The five index maps of launch 1, decided over its eight grid points: the three row-blocked operands and the result
    move together down the rows, nothing moves across the columns, and the bias row stays put. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 7 :=
  (by decide +kernel : ∀ t : Fin grid1.N, _)

/-- Every one of the eight row blocks is some grid point's. -/
theorem idx_onto1 : ∀ q0 : Fin 8, ∃ t : Fin cfg1.N, win1_4.index t = ![q0.val, 0] :=
  (by decide +kernel : ∀ q0 : Fin 8, ∃ t : Fin grid1.N, win1_4.index t = ![q0.val, 0])

/-- What grid point `t` writes back is block `t` of `Spec.combine` of the launch's four arrays. -/
theorem flushed1 (c : Dev nD) (t : Fin cfg1.N) :
    (dat1 V c).flushed 4 t = ((cfg1.win 4).blk t).view.read (Elt Ideal)
      (combine (V c main_v45) (V c main_v32) (V c main_v27) (V c main_v28)) := by
  show (cfg1.win 4).cut (grid1.coords t) ((dat1 V c).after 4 t) = _
  rw [after1_4]
  unfold out1_4
  rw [View.canon_unit_zero hz2c]
  simp only [View.ld_unit_zero (S := S5000x128) hz2c, View.ld_unit_zero (S := S5000x1) hz2c, View.ld_unit_zero (S := S1x128) hz2c]
  obtain ⟨e00, e01, e10, e11, e20, e21, e30, e31, e41, e40⟩ := idx_facts1 t
  funext j
  show k1_pay1 (iblk1 V c 0 t) (iblk1 V c 1 t) (iblk1 V c 2 t) (iblk1 V c 3 t) j
    = combine (V c main_v45) (V c main_v32) (V c main_v27) (V c main_v28) (((cfg1.win 4).blk t).view.emb j)
  refine (combine_entry1 _ _ _ _ j).trans ?_
  show max (msgs1 V c (((cfg1.win 0).blk t).view.emb j)
        + feat1 V c (((cfg1.win 1).blk t).view.emb j)
          * self1 V c (((cfg1.win 2).blk t).view.emb (ix2 (n0 := 5000) (n1 := 1) (j 0) 0))
        + bias1 V c (((cfg1.win 3).blk t).view.emb (ix2 (n0 := 1) (n1 := 128) 0 (j 1))))
      (Ideal.ofBits .f32 0x00000000#32)
    = max (msgs1 V c (((cfg1.win 4).blk t).view.emb j)
        + feat1 V c (((cfg1.win 4).blk t).view.emb j)
          * self1 V c (ix2 (n0 := 40000) (n1 := 1) ((((cfg1.win 4).blk t).view.emb j : S40000x128.Idx) 0) 0)
        + bias1 V c (ix2 (n0 := 1) (n1 := 128) 0 ((((cfg1.win 4).blk t).view.emb j : S40000x128.Idx) 1)))
      (Ideal.ofBits .f32 0x00000000#32)
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (ix2 (n0 := 5000) (n1 := 1) (j 0) 0)
      = ix2 (n0 := 40000) (n1 := 1) ((((cfg1.win 4).blk t).view.emb j : S40000x128.Idx) 0) 0 := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix2 (n0 := 1) (n1 := 128) 0 (j 1))
      = ix2 (n0 := 1) (n1 := 128) 0 ((((cfg1.win 4).blk t).view.emb j : S40000x128.Idx) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  have r0 := congrArg (msgs1 V c) h0
  have r1 := congrArg (feat1 V c) h1
  have r2 := congrArg (self1 V c) h2
  have r3 := congrArg (bias1 V c) h3
  exact congrArg₂ max (congrArg₂ (· + ·) (congrArg₂ (· + ·) r0 (congrArg₂ (· * ·) r1 r2)) r3) rfl

/-- An index of the result array lies in point `t`'s block iff each coordinate lies in the block's range on its axis. -/
theorem mem_blk1 (t : Fin cfg1.N) (i : S40000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v46).slice (win1_4.rect t)).set ↔ _
  rw [View.set_slice_whole, Rect.mem_set_unit]
  exact Iff.rfl

/-- The eight row blocks tile the 40000 rows: row r lies in block r / 5000. -/
theorem cover1 (i : S40000x128.Idx) :
    ∃ t : Fin cfg1.N, (cfg1.win 4).flush t = true ∧ i ∈ ((cfg1.win 4).blk t).view.set := by
  have hi0 : (i 0).val < 40000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array of launch 1 after its eight points. -/
theorem final1 (c : Dev nD) :
    (dat1 V c).arrAt 4 cfg1.N = combine (V c main_v45) (V c main_v32) (V c main_v27) (V c main_v28) :=
  (dat1 V c).arrAt_eq_of_cover 4 _ (fun t _ => flushed1 V c t) (cover1)

end Launch1

end Cert.KernelIdeal.Val

end
-- ==== Proof.KCombine3.lean ====
/-
  The second "combine" launch (messages + self-loop term + bias, clamped at zero), over eight row blocks of 5000
  nodes: what a grid point writes back is its block of `Spec.combine` of the four arrays the launch reads, and the
  eight blocks tile the 40000 rows, so the result array ends holding `Spec.combine` of them.
-/
import proofs.«169304_j7559142441000_1_alg».proof.Proof.Gen.KernelIdeal.Frame
import proofs.«169304_j7559142441000_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

theorem hz2d : (![0, 0] : Fin 2 → Nat) = fun _ => 0 := funext fun a => by fin_cases a <;> rfl

/-- The body's arithmetic at an entry (p, q) of a block: the per-node factor is read in column 0 of row p, the bias
    in row 0 of column q. -/
theorem combine_entry3 (x0 x1 : Vec Ideal S5000x128 .f32) (x2 : Vec Ideal S5000x1 .f32) (x3 : Vec Ideal S1x128 .f32)
    (j : S5000x128.Idx) :
    k3_pay1 x0 x1 x2 x3 j
      = max (x0 j + x1 j * x2 (ix2 (j 0) 0) + x3 (ix2 0 (j 1))) (Ideal.ofBits .f32 0x00000000#32) := by
  unfold k3_pay1
  simp only [shapeCast_self]
  show max ((x0 j + x1 j * broadcastTo S5000x128 x2 _ j) + broadcastTo S5000x128 x3 _ j) _ = _
  rw [broadcastTo_apply x2 _ j (ix2 (j 0) 0) (fun a => match a with
        | ⟨0, _⟩ => by show (j 0).val = if (5000 : Nat) = 1 then 0 else (j 0).val; rw [if_neg (by decide)]
        | ⟨1, _⟩ => by show 0 = if (1 : Nat) = 1 then 0 else (j 1).val; rw [if_pos rfl]),
      broadcastTo_apply x3 _ j (ix2 0 (j 1)) (fun a => match a with
        | ⟨0, _⟩ => by show 0 = if (1 : Nat) = 1 then 0 else (j 0).val; rw [if_pos rfl]
        | ⟨1, _⟩ => by show (j 1).val = if (128 : Nat) = 1 then 0 else (j 1).val; rw [if_neg (by decide)])]
  rfl

/-! ## Launch 3 -/

section Launch3
variable (V : (c : Dev nD) → (b : Ref sig .tc) → Buf (Elt Ideal) ((c : Thread nD τ).loc b))

/-- The four arrays launch 3 reads, as the launch finds them, each at its literal shape. -/
abbrev msgs3 (c : Dev nD) : FVec Ideal S40000x128 .f32 := V c main_v60
abbrev feat3 (c : Dev nD) : FVec Ideal S40000x128 .f32 := V c main_v47
abbrev self3 (c : Dev nD) : FVec Ideal S40000x1 .f32 := V c main_v27
abbrev bias3 (c : Dev nD) : FVec Ideal S1x128 .f32 := V c main_v29

/-- The five index maps of launch 3, decided over its eight grid points: the three row-blocked operands and the result
    move together down the rows, nothing moves across the columns, and the bias row stays put. -/
theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 7 :=
  (by decide +kernel : ∀ t : Fin grid3.N, _)

/-- Every one of the eight row blocks is some grid point's. -/
theorem idx_onto3 : ∀ q0 : Fin 8, ∃ t : Fin cfg3.N, win3_4.index t = ![q0.val, 0] :=
  (by decide +kernel : ∀ q0 : Fin 8, ∃ t : Fin grid3.N, win3_4.index t = ![q0.val, 0])

/-- What grid point `t` writes back is block `t` of `Spec.combine` of the launch's four arrays. -/
theorem flushed3 (c : Dev nD) (t : Fin cfg3.N) :
    (dat3 V c).flushed 4 t = ((cfg3.win 4).blk t).view.read (Elt Ideal)
      (combine (V c main_v60) (V c main_v47) (V c main_v27) (V c main_v29)) := by
  show (cfg3.win 4).cut (grid3.coords t) ((dat3 V c).after 4 t) = _
  rw [after3_4]
  unfold out3_4
  rw [View.canon_unit_zero hz2d]
  simp only [View.ld_unit_zero (S := S5000x128) hz2d, View.ld_unit_zero (S := S5000x1) hz2d, View.ld_unit_zero (S := S1x128) hz2d]
  obtain ⟨e00, e01, e10, e11, e20, e21, e30, e31, e41, e40⟩ := idx_facts3 t
  funext j
  show k3_pay1 (iblk3 V c 0 t) (iblk3 V c 1 t) (iblk3 V c 2 t) (iblk3 V c 3 t) j
    = combine (V c main_v60) (V c main_v47) (V c main_v27) (V c main_v29) (((cfg3.win 4).blk t).view.emb j)
  refine (combine_entry3 _ _ _ _ j).trans ?_
  show max (msgs3 V c (((cfg3.win 0).blk t).view.emb j)
        + feat3 V c (((cfg3.win 1).blk t).view.emb j)
          * self3 V c (((cfg3.win 2).blk t).view.emb (ix2 (n0 := 5000) (n1 := 1) (j 0) 0))
        + bias3 V c (((cfg3.win 3).blk t).view.emb (ix2 (n0 := 1) (n1 := 128) 0 (j 1))))
      (Ideal.ofBits .f32 0x00000000#32)
    = max (msgs3 V c (((cfg3.win 4).blk t).view.emb j)
        + feat3 V c (((cfg3.win 4).blk t).view.emb j)
          * self3 V c (ix2 (n0 := 40000) (n1 := 1) ((((cfg3.win 4).blk t).view.emb j : S40000x128.Idx) 0) 0)
        + bias3 V c (ix2 (n0 := 1) (n1 := 128) 0 ((((cfg3.win 4).blk t).view.emb j : S40000x128.Idx) 1)))
      (Ideal.ofBits .f32 0x00000000#32)
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (ix2 (n0 := 5000) (n1 := 1) (j 0) 0)
      = ix2 (n0 := 40000) (n1 := 1) ((((cfg3.win 4).blk t).view.emb j : S40000x128.Idx) 0) 0 := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (ix2 (n0 := 1) (n1 := 128) 0 (j 1))
      = ix2 (n0 := 1) (n1 := 128) 0 ((((cfg3.win 4).blk t).view.emb j : S40000x128.Idx) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  have r0 := congrArg (msgs3 V c) h0
  have r1 := congrArg (feat3 V c) h1
  have r2 := congrArg (self3 V c) h2
  have r3 := congrArg (bias3 V c) h3
  exact congrArg₂ max (congrArg₂ (· + ·) (congrArg₂ (· + ·) r0 (congrArg₂ (· * ·) r1 r2)) r3) rfl

/-- An index of the result array lies in point `t`'s block iff each coordinate lies in the block's range on its axis. -/
theorem mem_blk3 (t : Fin cfg3.N) (i : S40000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v61).slice (win3_4.rect t)).set ↔ _
  rw [View.set_slice_whole, Rect.mem_set_unit]
  exact Iff.rfl

/-- The eight row blocks tile the 40000 rows: row r lies in block r / 5000. -/
theorem cover3 (i : S40000x128.Idx) :
    ∃ t : Fin cfg3.N, (cfg3.win 4).flush t = true ∧ i ∈ ((cfg3.win 4).blk t).view.set := by
  have hi0 : (i 0).val < 40000 := (i 0).isLt
  have hi1 : (i 1).val < 128 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The result array of launch 3 after its eight points. -/
theorem final3 (c : Dev nD) :
    (dat3 V c).arrAt 4 cfg3.N = combine (V c main_v60) (V c main_v47) (V c main_v27) (V c main_v29) :=
  (dat3 V c).arrAt_eq_of_cover 4 _ (fun t _ => flushed3 V c t) (cover3)

end Launch3

end Cert.KernelIdeal.Val

end
-- ==== Proof.KNorm.lean ====
/-
  The layer-normalisation launch, over eight row blocks of 5000 nodes. In a block, each row's mean is its sum over
  the 128 features divided by 128, its variance the sum of its squared deviations divided by 128; an entry is centred
  by its row's mean, scaled by the reciprocal square root of the row's variance plus ε, multiplied by the gain's entry
  of its column and shifted by the shift's entry of its column. A row of a block is a row of the array, so what a grid
  point writes back is its block of Spec.layerNorm of the three arrays the launch reads; the eight blocks tile the
  40000 rows, so the result array ends holding Spec.layerNorm of them.
-/
import proofs.«169304_j7559142441000_1_alg».proof.Proof.Gen.KernelIdeal.Frame
import proofs.«169304_j7559142441000_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

/-- A vector of 5000 numbers cast to a column reads, at (p, 0), its p-th number. -/
theorem col_apply4 (v : FVec Ideal S5000 .f32) (hc : S5000.ShapeCasts S5000x1) (i : S5000x1.Idx) :
    shapeCast S5000x1 v hc i = v (ix1 (i 0)) :=
  shapeCast_apply v hc i (ix1 (i 0)) (by
    rw [Shape.rowMajor_val_one, Shape.rowMajor_val_two]
    have h1 : (i 1).val < 1 := (i 1).isLt
    show (i 0).val = (i 0).val * 1 + (i 1).val
    omega)

/-- The lane sum of a block, cast to a column, read at row p: the sum of the block's row p. -/
theorem rowsum_col4 (y : FVec Ideal S5000x128 .f32) (hr : S5000x128.Reduces [1] S5000) (hc : S5000.ShapeCasts S5000x1)
    (hφ : FKind.Formats .f32) (hacc : (0x00000000#32 : BitVec 32) = FKind.add.neutral .f32 hφ) (i : S5000x1.Idx) :
    shapeCast S5000x1 (multiReduction (F := Ideal) .add [1] S5000 y 0x00000000#32 hr hφ hacc) hc i
      = ∑ k : Fin 128, y (ix2 (i 0) k) := by
  rw [col_apply4, Ideal.multiReduction_add_single]
  refine Finset.sum_congr rfl fun k _ => congrArg y ?_
  funext a
  match a with
  | ⟨0, _⟩ => rfl
  | ⟨1, _⟩ => rfl

/-- A column broadcast along the lanes reads, at (p, q), the column's entry (p, 0). -/
theorem bcol4 (v : FVec Ideal S5000x1 .f32) (hb : S5000x1.Broadcasts S5000x128) (j : S5000x128.Idx) :
    broadcastTo S5000x128 v hb j = v (ix2 (j 0) 0) :=
  broadcastTo_apply v hb j (ix2 (j 0) 0) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- A row broadcast down the sublanes reads, at (p, q), the row's entry (0, q). -/
theorem brow4 (v : FVec Ideal S1x128 .f32) (hb : S1x128.Broadcasts S5000x128) (j : S5000x128.Idx) :
    broadcastTo S5000x128 v hb j = v (ix2 0 (j 1)) :=
  broadcastTo_apply v hb j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The mean of row p of a block: its sum over the 128 features, divided by 128. -/
def blkMean4 (x : FVec Ideal S5000x128 .f32) (p : Fin 5000) : EReal :=
  Ideal.div (∑ k : Fin 128, x (ix2 p k)) (Ideal.ofBits .f32 0x43000000#32)

/-- The variance of row p of a block: the sum of its squared deviations from the mean, divided by 128. -/
def blkVar4 (x : FVec Ideal S5000x128 .f32) (p : Fin 5000) : EReal :=
  Ideal.div (∑ k : Fin 128, (x (ix2 p k) - blkMean4 x p) * (x (ix2 p k) - blkMean4 x p)) (Ideal.ofBits .f32 0x43000000#32)

/-- The body's column of row means, broadcast along the lanes, reads at (p, q) the mean of row p. -/
theorem mean_bc4 (x : FVec Ideal S5000x128 .f32) (hr : S5000x128.Reduces [1] S5000) (hc : S5000.ShapeCasts S5000x1)
    (hb : S5000x1.Broadcasts S5000x128) (hφ : FKind.Formats .f32)
    (hacc : (0x00000000#32 : BitVec 32) = FKind.add.neutral .f32 hφ) (j : S5000x128.Idx) :
    broadcastTo S5000x128 (divf (shapeCast S5000x1 (multiReduction (F := Ideal) .add [1] S5000 x 0x00000000#32 hr hφ hacc) hc)
        (broadcast S5000x1 (Scalar.ofBits (F := Ideal) .f32 0x43000000#32))) hb j
      = blkMean4 x (j 0) := by
  rw [bcol4]
  show Ideal.div (shapeCast S5000x1 _ hc (ix2 (j 0) 0)) (Ideal.ofBits .f32 0x43000000#32) = _
  rw [rowsum_col4]
  rfl

/-- The body's column of reciprocal standard deviations, broadcast along the lanes, reads at (p, q) the reciprocal
    square root of row p's variance plus ε, whenever the block m it is centred by reads the row means. -/
theorem rstd_bc4 (x m : FVec Ideal S5000x128 .f32) (hm : ∀ j : S5000x128.Idx, m j = blkMean4 x (j 0))
    (hr : S5000x128.Reduces [1] S5000) (hc : S5000.ShapeCasts S5000x1)
    (hb : S5000x1.Broadcasts S5000x128) (hφ : FKind.Formats .f32)
    (hacc : (0x00000000#32 : BitVec 32) = FKind.add.neutral .f32 hφ) (j : S5000x128.Idx) :
    broadcastTo S5000x128 (rsqrt (addf (divf (shapeCast S5000x1
          (multiReduction (F := Ideal) .add [1] S5000 (mulf (subf x m) (subf x m)) 0x00000000#32 hr hφ hacc) hc)
        (broadcast S5000x1 (Scalar.ofBits (F := Ideal) .f32 0x43000000#32)))
        (broadcast S5000x1 (Scalar.ofBits (F := Ideal) .f32 0x3727C5AC#32)))) hb j
      = Ideal.rsqrt (blkVar4 x (j 0) + Ideal.ofBits .f32 0x3727C5AC#32) := by
  rw [bcol4]
  show Ideal.rsqrt (Ideal.div (shapeCast S5000x1 _ hc (ix2 (j 0) 0)) (Ideal.ofBits .f32 0x43000000#32)
      + Ideal.ofBits .f32 0x3727C5AC#32) = _
  rw [rowsum_col4]
  refine congrArg (fun s => Ideal.rsqrt (Ideal.div s (Ideal.ofBits .f32 0x43000000#32) + Ideal.ofBits .f32 0x3727C5AC#32)) ?_
  refine Finset.sum_congr rfl fun k _ => ?_
  show (x (ix2 (j 0) k) - m (ix2 (j 0) k)) * (x (ix2 (j 0) k) - m (ix2 (j 0) k)) = _
  rw [hm]

/-- The body's arithmetic at an entry (p, q) of a block: row p centred by its mean, scaled by the reciprocal square
    root of its variance plus ε, then by the gain's entry q, and shifted by the shift's entry q. -/
theorem norm_entry4 (x0 : Vec Ideal S5000x128 .f32) (x1 x2 : Vec Ideal S1x128 .f32) (j : S5000x128.Idx) :
    k4_pay1 x0 x1 x2 j
      = (x0 j - blkMean4 x0 (j 0)) * Ideal.rsqrt (blkVar4 x0 (j 0) + Ideal.ofBits .f32 0x3727C5AC#32) * x1 (ix2 0 (j 1))
        + x2 (ix2 0 (j 1)) := by
  unfold k4_pay1
  simp only [shapeCast_self]
  show (x0 j - broadcastTo S5000x128 _ _ j) * broadcastTo S5000x128 _ _ j * broadcastTo S5000x128 x1 _ j
      + broadcastTo S5000x128 x2 _ j = _
  exact congrArg₂ (· + ·)
    (congrArg₂ (· * ·)
      (congrArg₂ (· * ·) (congrArg (x0 j - ·) (mean_bc4 x0 _ _ _ _ _ j))
        (rstd_bc4 x0 _ (fun i => mean_bc4 x0 _ _ _ _ _ i) _ _ _ _ _ j))
      (brow4 x1 _ j))
    (brow4 x2 _ j)

/-! ## From a block to the array -/

/-- Row p of the q-th of the eight row blocks is row 5000 q + p of the array. -/
def rowIn4 (q : Nat) (hq : q ≤ 7) (p : Fin 5000) : Fin 40000 := ⟨q * 5000 + p.val, by have := p.isLt; omega⟩

/-- A block that holds the rows r(0), r(1), … of an array has, in its row p, the mean of the array's row r(p). -/
theorem mean_block4 (A : FVec Ideal S40000x128 .f32) (x0 : FVec Ideal S5000x128 .f32) (r : Fin 5000 → Fin 40000)
    (h0 : ∀ i : S5000x128.Idx, x0 i = A (ix2 (r (i 0)) (i 1))) (p : Fin 5000) :
    blkMean4 x0 p = rowMean A (r p) := by
  unfold blkMean4 rowMean
  exact congrArg (fun s => Ideal.div s (Ideal.ofBits .f32 0x43000000#32))
    (Finset.sum_congr rfl fun k _ => h0 (ix2 p k))

/-- … and the variance of the array's row r(p). -/
theorem var_block4 (A : FVec Ideal S40000x128 .f32) (x0 : FVec Ideal S5000x128 .f32) (r : Fin 5000 → Fin 40000)
    (h0 : ∀ i : S5000x128.Idx, x0 i = A (ix2 (r (i 0)) (i 1))) (p : Fin 5000) :
    blkVar4 x0 p = rowVar A (r p) := by
  unfold blkVar4 rowVar
  rw [mean_block4 A x0 r h0 p]
  refine congrArg (fun s => Ideal.div s (Ideal.ofBits .f32 0x43000000#32)) (Finset.sum_congr rfl fun k _ => ?_)
  have hk : x0 (ix2 p k) = A (ix2 (r p) k) := h0 (ix2 p k)
  rw [hk]

/-- So the normalised block is the block of the normalised array: entry (p, q) of the one is entry (r(p), q) of the
    other, the gain and the shift being the same rows. -/
theorem norm_block4 (A : FVec Ideal S40000x128 .f32) (g b : FVec Ideal S1x128 .f32)
    (x0 : FVec Ideal S5000x128 .f32) (x1 x2 : FVec Ideal S1x128 .f32) (r : Fin 5000 → Fin 40000)
    (h0 : ∀ i : S5000x128.Idx, x0 i = A (ix2 (r (i 0)) (i 1)))
    (h1 : ∀ q : Fin 128, x1 (ix2 0 q) = g (ix2 0 q)) (h2 : ∀ q : Fin 128, x2 (ix2 0 q) = b (ix2 0 q))
    (j : S5000x128.Idx) :
    (x0 j - blkMean4 x0 (j 0)) * Ideal.rsqrt (blkVar4 x0 (j 0) + Ideal.ofBits .f32 0x3727C5AC#32) * x1 (ix2 0 (j 1))
        + x2 (ix2 0 (j 1))
      = layerNorm A g b (ix2 (r (j 0)) (j 1)) := by
  have hm : blkMean4 x0 (j 0) = rowMean A (r (j 0)) := mean_block4 A x0 r h0 (j 0)
  have hv : blkVar4 x0 (j 0) = rowVar A (r (j 0)) := var_block4 A x0 r h0 (j 0)
  show _ = (A (ix2 (r (j 0)) (j 1)) - rowMean A (r (j 0)))
        * Ideal.rsqrt (rowVar A (r (j 0)) + Ideal.ofBits .f32 0x3727C5AC#32) * g (ix2 0 (j 1)) + b (ix2 0 (j 1))
  exact congrArg₂ (· + ·)
    (congrArg₂ (· * ·)
      (congrArg₂ (· * ·) (congrArg₂ (· - ·) (h0 j) hm)
        (congrArg (fun s => Ideal.rsqrt (s + Ideal.ofBits .f32 0x3727C5AC#32)) hv))
      (h1 (j 1)))
    (h2 (j 1))

/-! ## The launch -/

theorem hz4 : (![0, 0] : Fin 2 → Nat) = fun _ => 0 := funext fun a => by fin_cases a <;> rfl

section Launch4
variable (V : (c : Dev nD) → (b : Ref sig .tc) → Buf (Elt Ideal) ((c : Thread nD τ).loc b))

/-- The three arrays the launch reads, as the launch finds them, each at its literal shape. -/
abbrev feat4 (c : Dev nD) : FVec Ideal S40000x128 .f32 := V c main_v61
abbrev gain4 (c : Dev nD) : FVec Ideal S1x128 .f32 := V c main_v30
abbrev shift4 (c : Dev nD) : FVec Ideal S1x128 .f32 := V c main_v31

/-- The four index maps of the launch, decided over its eight grid points: the feature blocks and the result blocks
    move together down the rows, nothing moves across the columns, and the gain and shift rows stay put. -/
theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every one of the eight row blocks is some grid point's. -/
theorem idx_onto4 : ∀ q0 : Fin 8, ∃ t : Fin cfg4.N, win4_3.index t = ![q0.val, 0] :=
  (by decide +kernel : ∀ q0 : Fin 8, ∃ t : Fin grid4.N, win4_3.index t = ![q0.val, 0])

/-- What grid point t writes back is block t of the layer normalisation of the launch's three arrays. -/
theorem flushed4 (c : Dev nD) (t : Fin cfg4.N) :
    (dat4 V c).flushed 3 t = ((cfg4.win 3).blk t).view.read (Elt Ideal)
      (layerNorm (V c main_v61) (V c main_v30) (V c main_v31)) := by
  show (cfg4.win 3).cut (grid4.coords t) ((dat4 V c).after 3 t) = _
  rw [after4_3]
  unfold out4_3
  rw [View.canon_unit_zero hz4]
  simp only [View.ld_unit_zero (S := S5000x128) hz4, View.ld_unit_zero (S := S1x128) hz4]
  obtain ⟨e00, e01, e10, e11, e20, e21, e31, e30⟩ := idx_facts4 t
  funext j
  show k4_pay1 (iblk4 V c 0 t) (iblk4 V c 1 t) (iblk4 V c 2 t) j
    = layerNorm (feat4 V c) (gain4 V c) (shift4 V c) (((cfg4.win 3).blk t).view.emb j)
  refine (norm_entry4 _ _ _ j).trans ?_
  have hj : ((cfg4.win 3).blk t).view.emb j
      = ix2 (n0 := 40000) (n1 := 128) (rowIn4 (win4_3.index t (0 : Fin 2)) e30 (j 0)) (j 1) := by
    funext a; apply Fin.ext
    match a with
    | ⟨0, _⟩ => show win4_3.index t (0 : Fin 2) * 5000 + 1 * (j 0).val = win4_3.index t (0 : Fin 2) * 5000 + (j 0).val; omega
    | ⟨1, _⟩ => show win4_3.index t (1 : Fin 2) * 128 + 1 * (j 1).val = (j 1).val; omega
  refine Eq.trans ?_ (congrArg (layerNorm (feat4 V c) (gain4 V c) (shift4 V c)) hj).symm
  refine norm_block4 (feat4 V c) (gain4 V c) (shift4 V c) _ _ _ (rowIn4 (win4_3.index t (0 : Fin 2)) e30) ?_ ?_ ?_ j
  · intro i
    show feat4 V c (((cfg4.win 0).blk t).view.emb i)
      = feat4 V c (ix2 (n0 := 40000) (n1 := 128) (rowIn4 (win4_3.index t (0 : Fin 2)) e30 (i 0)) (i 1))
    refine congrArg (feat4 V c) ?_
    funext a; apply Fin.ext
    match a with
    | ⟨0, _⟩ => show win4_0.index t (0 : Fin 2) * 5000 + 1 * (i 0).val = win4_3.index t (0 : Fin 2) * 5000 + (i 0).val; omega
    | ⟨1, _⟩ => show win4_0.index t (1 : Fin 2) * 128 + 1 * (i 1).val = (i 1).val; omega
  · intro q
    show gain4 V c (((cfg4.win 1).blk t).view.emb (ix2 (n0 := 1) (n1 := 128) 0 q)) = gain4 V c (ix2 (n0 := 1) (n1 := 128) 0 q)
    refine congrArg (gain4 V c) ?_
    funext a; apply Fin.ext
    match a with
    | ⟨0, _⟩ => show win4_1.index t (0 : Fin 2) * 1 + 1 * 0 = 0; omega
    | ⟨1, _⟩ => show win4_1.index t (1 : Fin 2) * 128 + 1 * q.val = q.val; omega
  · intro q
    show shift4 V c (((cfg4.win 2).blk t).view.emb (ix2 (n0 := 1) (n1 := 128) 0 q)) = shift4 V c (ix2 (n0 := 1) (n1 := 128) 0 q)
    refine congrArg (shift4 V c) ?_
    funext a; apply Fin.ext
    match a with
    | ⟨0, _⟩ => show win4_2.index t (0 : Fin 2) * 1 + 1 * 0 = 0; omega
    | ⟨1, _⟩ => show win4_2.index t (1 : Fin 2) * 128 + 1 * q.val = q.val; omega

/-- An index of the result array lies in point t's block iff each coordinate lies in the block's range on its axis. -/
theorem mem_blk4 (t : Fin cfg4.N) (i : S40000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v62).slice (win4_3.rect t)).set ↔ _
  rw [View.set_slice_whole, Rect.mem_set_unit]
  exact Iff.rfl

/-- The eight row blocks tile the 40000 rows: row r lies in block r / 5000. -/
theorem cover4 (i : S40000x128.Idx) :
    ∃ t : Fin cfg4.N, (cfg4.win 3).flush t = true ∧ i ∈ ((cfg4.win 3).blk t).view.set := by
  have hi0 : (i 0).val < 40000 := (i 0).isLt
  have hi1 : (i 1).val < 128 := (i 1).isLt
  obtain ⟨t, ht⟩ := idx_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The result array of the launch after its eight points. -/
theorem final4 (c : Dev nD) :
    (dat4 V c).arrAt 3 cfg4.N = layerNorm (V c main_v61) (V c main_v30) (V c main_v31) :=
  (dat4 V c).arrAt_eq_of_cover 3 _ (fun t _ => flushed4 V c t) (cover4)

end Launch4

end Cert.KernelIdeal.Val

end
-- ==== Proof.KChain.lean ====
/-
  The kernel program's result, stage by stage. Each launch's result array is the stage's whole-array function
  (`Spec.proj`, `Spec.combine`, `Spec.layerNorm`) of the arrays the launch finds at its entry; each of those is either
  an earlier launch's result, an aggregation over the edges a host stretch computed from one, or something the first
  stretch left and nothing has written since. Composed, the last launch's result is `Model.encoder` of the nine
  arguments.
-/
import proofs.«169304_j7559142441000_1_alg».proof.Proof.KHostBase
import proofs.«169304_j7559142441000_1_alg».proof.Proof.KProj
import proofs.«169304_j7559142441000_1_alg».proof.Proof.KCombine1
import proofs.«169304_j7559142441000_1_alg».proof.Proof.KCombine3
import proofs.«169304_j7559142441000_1_alg».proof.Proof.KNorm

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen Cert.Spec Cert.Model

variable (m : (ℓ : Loc nD τ sig) → Buf (Elt Ideal) ℓ) (ρ : Dev nD → PrngReg)

/-- The first layer's output, as a function of the arguments. -/
abbrev hidden1 (c : Dev nD) : Vec Ideal Cert.ReferenceIdeal.S40000x128 .f32 :=
  layer (m ((c : Thread nD τ).loc main_arg0)) (m ((c : Thread nD τ).loc main_arg3)) (m ((c : Thread nD τ).loc main_arg4))
    (m ((c : Thread nD τ).loc main_arg1)) (m ((c : Thread nD τ).loc main_arg2))

/-- The second layer's output, as a function of the arguments. -/
abbrev hidden2 (c : Dev nD) : Vec Ideal Cert.ReferenceIdeal.S40000x128 .f32 :=
  layer (hidden1 m c) (m ((c : Thread nD τ).loc main_arg5)) (m ((c : Thread nD τ).loc main_arg6))
    (m ((c : Thread nD τ).loc main_arg1)) (m ((c : Thread nD τ).loc main_arg2))

/-! ## Launch 0: the first projection -/

theorem out0 (c : Dev nD) : W2 m ρ c (Proc.devRef .tc main_v32)
    = proj (m ((c : Thread nD τ).loc main_arg0)) (m ((c : Thread nD τ).loc main_arg3)) :=
  ((W2_arr m ρ c 2).trans (final0 (V1 m ρ) c)).trans
    (congrArg₂ proj (at1_main_arg0 m ρ c) (at1_main_arg3 m ρ c))

/-! ## The edge data at the second stretch's entry -/

theorem at2_main_v1 (c : Dev nD) : W2 m ρ c (Proc.devRef .tc main_v1) = src (m ((c : Thread nD τ).loc main_arg1)) :=
  (W2_of_ne m ρ c main_v1 (by decide)).trans (at1_main_v1 m ρ c)
theorem at2_main_v3 (c : Dev nD) : W2 m ρ c (Proc.devRef .tc main_v3) = dst (m ((c : Thread nD τ).loc main_arg1)) :=
  (W2_of_ne m ρ c main_v3 (by decide)).trans (at1_main_v3 m ρ c)
theorem at2_main_v25 (c : Dev nD) : W2 m ρ c (Proc.devRef .tc main_v25)
    = norm (m ((c : Thread nD τ).loc main_arg1)) (m ((c : Thread nD τ).loc main_arg2)) :=
  (W2_of_ne m ρ c main_v25 (by decide)).trans (at1_main_v25 m ρ c)

/-! ## Launch 1: the first layer's combine -/

theorem in1_msgs (c : Dev nD) : V3 m ρ c main_v45
    = aggregate (proj (m ((c : Thread nD τ).loc main_arg0)) (m ((c : Thread nD τ).loc main_arg3)))
        (m ((c : Thread nD τ).loc main_arg1)) (m ((c : Thread nD τ).loc main_arg2)) := by
  show W3 m ρ c (Proc.devRef .tc main_v45) = _
  rw [agg1 m ρ c, at2_main_v3 m ρ c, at2_main_v1 m ρ c, at2_main_v25 m ρ c, out0 m ρ c, aggregate_eq]

theorem in1_feat (c : Dev nD) : V3 m ρ c main_v32
    = proj (m ((c : Thread nD τ).loc main_arg0)) (m ((c : Thread nD τ).loc main_arg3)) :=
  (thru1_main_v32 m ρ c).trans (out0 m ρ c)

theorem at3_main_v27 (c : Dev nD) : W3 m ρ c (Proc.devRef .tc main_v27)
    = selfCol (m ((c : Thread nD τ).loc main_arg1)) (m ((c : Thread nD τ).loc main_arg2)) :=
  (thru1_main_v27 m ρ c).trans ((W2_of_ne m ρ c main_v27 (by decide)).trans (at1_main_v27 m ρ c))

theorem in1_self (c : Dev nD) : V3 m ρ c main_v27
    = selfCol (m ((c : Thread nD τ).loc main_arg1)) (m ((c : Thread nD τ).loc main_arg2)) := at3_main_v27 m ρ c

theorem in1_bias (c : Dev nD) : V3 m ρ c main_v28 = rowOf (m ((c : Thread nD τ).loc main_arg4)) :=
  (thru1_main_v28 m ρ c).trans ((W2_of_ne m ρ c main_v28 (by decide)).trans (at1_main_v28 m ρ c))

theorem out1 (c : Dev nD) : W4 m ρ c (Proc.devRef .tc main_v46) = hidden1 m c := by
  refine ((W4_arr m ρ c 4).trans (final1 (V3 m ρ) c)).trans ?_
  rw [in1_msgs m ρ c, in1_feat m ρ c, in1_self m ρ c, in1_bias m ρ c]
  rfl

/-! ## Launch 2: the second projection -/

theorem in2_w (c : Dev nD) : V4 m ρ c main_arg5 = m ((c : Thread nD τ).loc main_arg5) :=
  (W4_of_ne m ρ c main_arg5 (by decide)).trans ((thru1_main_arg5 m ρ c).trans
    ((W2_of_ne m ρ c main_arg5 (by decide)).trans (at1_main_arg5 m ρ c)))

theorem out2 (c : Dev nD) : W5 m ρ c (Proc.devRef .tc main_v47)
    = proj (hidden1 m c) (m ((c : Thread nD τ).loc main_arg5)) :=
  ((W5_arr m ρ c 2).trans (final2 (V4 m ρ) c)).trans (congrArg₂ proj (out1 m ρ c) (in2_w m ρ c))

/-! ## The edge data at the third stretch's entry -/

theorem at5_main_v1 (c : Dev nD) : W5 m ρ c (Proc.devRef .tc main_v1) = src (m ((c : Thread nD τ).loc main_arg1)) :=
  (W5_of_ne m ρ c main_v1 (by decide)).trans ((W4_of_ne m ρ c main_v1 (by decide)).trans
    ((thru1_main_v1 m ρ c).trans (at2_main_v1 m ρ c)))
theorem at5_main_v3 (c : Dev nD) : W5 m ρ c (Proc.devRef .tc main_v3) = dst (m ((c : Thread nD τ).loc main_arg1)) :=
  (W5_of_ne m ρ c main_v3 (by decide)).trans ((W4_of_ne m ρ c main_v3 (by decide)).trans
    ((thru1_main_v3 m ρ c).trans (at2_main_v3 m ρ c)))
theorem at5_main_v25 (c : Dev nD) : W5 m ρ c (Proc.devRef .tc main_v25)
    = norm (m ((c : Thread nD τ).loc main_arg1)) (m ((c : Thread nD τ).loc main_arg2)) :=
  (W5_of_ne m ρ c main_v25 (by decide)).trans ((W4_of_ne m ρ c main_v25 (by decide)).trans
    ((thru1_main_v25 m ρ c).trans (at2_main_v25 m ρ c)))

/-! ## Launch 3: the second layer's combine -/

theorem in3_msgs (c : Dev nD) : V6 m ρ c main_v60
    = aggregate (proj (hidden1 m c) (m ((c : Thread nD τ).loc main_arg5)))
        (m ((c : Thread nD τ).loc main_arg1)) (m ((c : Thread nD τ).loc main_arg2)) := by
  show W6 m ρ c (Proc.devRef .tc main_v60) = _
  rw [agg3 m ρ c, at5_main_v3 m ρ c, at5_main_v1 m ρ c, at5_main_v25 m ρ c, out2 m ρ c, aggregate_eq]

theorem in3_feat (c : Dev nD) : V6 m ρ c main_v47 = proj (hidden1 m c) (m ((c : Thread nD τ).loc main_arg5)) :=
  (thru3_main_v47 m ρ c).trans (out2 m ρ c)

/-- Launch 1 only reads the self-loop column: an input window's array leaves the launch as it entered. -/
theorem kept1_main_v27 (c : Dev nD) : W4 m ρ c (Proc.devRef .tc main_v27) = W3 m ρ c (Proc.devRef .tc main_v27) :=
  (W4_arr m ρ c 2).trans (((dat1 (V3 m ρ) c).arrAt_in 2 rfl _).trans (A_eq1 (V3 m ρ) c 2))

theorem in3_self (c : Dev nD) : V6 m ρ c main_v27
    = selfCol (m ((c : Thread nD τ).loc main_arg1)) (m ((c : Thread nD τ).loc main_arg2)) :=
  (thru3_main_v27 m ρ c).trans ((W5_of_ne m ρ c main_v27 (by decide)).trans
    ((kept1_main_v27 m ρ c).trans (at3_main_v27 m ρ c)))

theorem in3_bias (c : Dev nD) : V6 m ρ c main_v29 = rowOf (m ((c : Thread nD τ).loc main_arg6)) :=
  (thru3_main_v29 m ρ c).trans ((W5_of_ne m ρ c main_v29 (by decide)).trans
    ((W4_of_ne m ρ c main_v29 (by decide)).trans ((thru1_main_v29 m ρ c).trans
      ((W2_of_ne m ρ c main_v29 (by decide)).trans (at1_main_v29 m ρ c)))))

theorem out3 (c : Dev nD) : W7 m ρ c (Proc.devRef .tc main_v61) = hidden2 m c := by
  refine ((W7_arr m ρ c 4).trans (final3 (V6 m ρ) c)).trans ?_
  rw [in3_msgs m ρ c, in3_feat m ρ c, in3_self m ρ c, in3_bias m ρ c]
  rfl

/-! ## Launch 4: the layer normalisation -/

theorem in4_gain (c : Dev nD) : V7 m ρ c main_v30 = rowOf (m ((c : Thread nD τ).loc main_arg7)) :=
  (W7_of_ne m ρ c main_v30 (by decide)).trans ((thru3_main_v30 m ρ c).trans
    ((W5_of_ne m ρ c main_v30 (by decide)).trans ((W4_of_ne m ρ c main_v30 (by decide)).trans
      ((thru1_main_v30 m ρ c).trans ((W2_of_ne m ρ c main_v30 (by decide)).trans (at1_main_v30 m ρ c))))))

theorem in4_shift (c : Dev nD) : V7 m ρ c main_v31 = rowOf (m ((c : Thread nD τ).loc main_arg8)) :=
  (W7_of_ne m ρ c main_v31 (by decide)).trans ((thru3_main_v31 m ρ c).trans
    ((W5_of_ne m ρ c main_v31 (by decide)).trans ((W4_of_ne m ρ c main_v31 (by decide)).trans
      ((thru1_main_v31 m ρ c).trans ((W2_of_ne m ρ c main_v31 (by decide)).trans (at1_main_v31 m ρ c))))))

/-- THE RESULT: the last launch's result array is the encoder of the nine arguments. -/
theorem result (c : Dev nD) : W8 m ρ c (Proc.devRef .tc main_v62)
    = encoder (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine ((W8_arr m ρ c 3).trans (final4 (V7 m ρ) c)).trans ?_
  rw [show V7 m ρ c main_v61 = hidden2 m c from out3 m ρ c, in4_gain m ρ c, in4_shift m ρ c]
  rfl

end Cert.KernelIdeal.Val

end
-- ==== Proof.RefValue.lean ====
/-
  The reference program's result is the encoder of its nine arguments.
  The program is two graph-convolution layers followed by a layer normalisation, written with whole-array host
  operations. Each layer computes the dense projection h = x · w, gathers and scatters it over the edges, adds the
  self-loop term h · dinv² (the per-node factor broadcast along the features) and the bias (broadcast along the
  nodes), and clamps at zero. The normalisation subtracts from each row its mean (the row's sum over the 128
  features divided by 128), multiplies by the reciprocal square root of the variance (the row's sum of squared
  deviations divided by 128) plus ε, then scales by the gain and shifts by the offset, both broadcast along the nodes.
  Read entry by entry on the extended reals, the projection is `Spec.proj`, a layer is `Spec.combine` of the
  aggregated projection, the projection, the self-loop column and the bias row, and the normalisation is
  `Spec.layerNorm`: the composition is `Model.encoder`.
-/
import proofs.«169304_j7559142441000_1_alg».proof.Proof.Gen.ReferenceIdeal.Run
import proofs.«169304_j7559142441000_1_alg».proof.Proof.Model
import proofs.«169304_j7559142441000_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.RefValue

open Idealize.ShloMosaic Idealize.ShloMosaic.TcCoe Idealize.ShloMosaic.ValueIdx Idealize.SL.Sem
open Cert.ReferenceIdeal Cert.ReferenceIdeal.Facts₀ Cert.Spec

/-! ## The program's operations, grouped -/

section Host
variable {F : FTy → Type} [FloatOps F]

/-- The dense projection as the host computes it. -/
def hostDot (x : FVec F S40000x128 .f32) (w : FVec F S128x128 .f32) : FVec F S40000x128 .f32 :=
  Host.dotGeneral dot_S40000x128_S128x128_S40000x128_1_0_0_1_n_n none x w

/-- One layer as the host computes it: the aggregated projection, plus the projection times dinv² broadcast along the
    features, plus the bias broadcast along the nodes, clamped at zero. -/
def hostLayer (x : FVec F S40000x128 .f32) (w : FVec F S128x128 .f32) (b : FVec F S128 .f32)
    (e : Vec F S2x640000 .i32) (ew : FVec F S640000 .f32) : FVec F S40000x128 .f32 :=
  maximumf (addf (addf (Model.aggregate (hostDot x w) e ew)
        (mulf (hostDot x w) (broadcastInDim S40000x128 ![0, 1] bcast_S40000x1_S40000x128_0_1
          (broadcastInDim S40000x1 ![0] bcast_S40000_S40000x1_0 (mulf (Model.dinv e ew) (Model.dinv e ew))))))
      (broadcastInDim S40000x128 ![0, 1] bcast_S1x128_S40000x128_0_1 (broadcastInDim S1x128 ![1] bcast_S128_S1x128_1 b)))
    (broadcastInDim S40000x128 ![] bcast_S_S40000x128 (constant S_ .f32 0x00000000#32))

/-- The sums over the features of an array, as a column, divided by 128. -/
def hostColMean (y : FVec F S40000x128 .f32) : FVec F S40000x1 .f32 :=
  Host.divf (broadcastInDim S40000x1 ![0] bcast_S40000_S40000x1_0
      (Host.reduceAdd y (constant S_ .f32 0x00000000#32) reducesTo_S40000x128_S40000_d1 h_S_))
    (broadcastInDim S40000x1 ![] bcast_S_S40000x1 (constant S_ .f32 0x43000000#32))

/-- Each row minus its mean. -/
def hostCen (h : FVec F S40000x128 .f32) : FVec F S40000x128 .f32 :=
  subf h (broadcastInDim S40000x128 ![0, 1] bcast_S40000x1_S40000x128_0_1 (hostColMean h))

/-- The reciprocal square root of each row's variance plus ε, as a column. -/
def hostInvStd (h : FVec F S40000x128 .f32) : FVec F S40000x1 .f32 :=
  Host.rsqrt (addf (hostColMean (mulf (hostCen h) (hostCen h)))
    (broadcastInDim S40000x1 ![] bcast_S_S40000x1 (constant S_ .f32 0x3727C5AC#32)))

/-- The layer normalisation as the host computes it. -/
def hostNorm (h : FVec F S40000x128 .f32) (g be : FVec F S128 .f32) : FVec F S40000x128 .f32 :=
  addf (mulf (mulf (hostCen h) (broadcastInDim S40000x128 ![0, 1] bcast_S40000x1_S40000x128_0_1 (hostInvStd h)))
      (broadcastInDim S40000x128 ![0, 1] bcast_S1x128_S40000x128_0_1 (broadcastInDim S1x128 ![1] bcast_S128_S1x128_1 g)))
    (broadcastInDim S40000x128 ![0, 1] bcast_S1x128_S40000x128_0_1 (broadcastInDim S1x128 ![1] bcast_S128_S1x128_1 be))

/-- The program's composed result term is the host normalisation of two host layers of its arguments: the same
    operations, grouped. -/
theorem res_grouped (m : (ℓ : Loc nD τ sig) → Buf (Elt F) ℓ) (c : Dev nD) :
    Cert.ReferenceIdeal.Value.res_main_v117 (F := F) m c
      = hostNorm (hostLayer (hostLayer (m ((c.tc : Thread nD τ).loc main_arg0)) (m ((c.tc : Thread nD τ).loc main_arg3))
            (m ((c.tc : Thread nD τ).loc main_arg4)) (m ((c.tc : Thread nD τ).loc main_arg1)) (m ((c.tc : Thread nD τ).loc main_arg2)))
          (m ((c.tc : Thread nD τ).loc main_arg5)) (m ((c.tc : Thread nD τ).loc main_arg6))
          (m ((c.tc : Thread nD τ).loc main_arg1)) (m ((c.tc : Thread nD τ).loc main_arg2)))
        (m ((c.tc : Thread nD τ).loc main_arg7)) (m ((c.tc : Thread nD τ).loc main_arg8)) := by
  unfold Cert.ReferenceIdeal.Value.res_main_v117 hostNorm hostInvStd hostCen hostColMean hostLayer hostDot
    Model.aggregate Model.norm Model.dinv Model.wrap Model.src Model.dst
  rfl

end Host

/-! ## Reading the layout operations at an index -/

section Layout
variable {α : Type}

/-- A column broadcast along the features, read at (r, q): the column at (r, 0). -/
theorem bcastCol_apply (y : S40000x1.Idx → α) (i : S40000x128.Idx) :
    broadcastInDim S40000x128 ![0, 1] bcast_S40000x1_S40000x128_0_1 y i = y (ix2 (n0 := 40000) (n1 := 1) (i 0) 0) :=
  broadcastInDim_apply _ bcast_S40000x1_S40000x128_0_1 y i _ (fun a => match a with
    | ⟨0, _⟩ => by show (i 0).val = if (40000 : Nat) = 1 then 0 else (i 0).val; rw [if_neg (by decide)]
    | ⟨1, _⟩ => by show 0 = if (1 : Nat) = 1 then 0 else (i 1).val; rw [if_pos rfl])

/-- A per-node vector laid out as a column, read at (r, 0): the vector at r. -/
theorem colOf_apply (z : S40000.Idx → α) (r : Fin 40000) :
    broadcastInDim S40000x1 ![0] bcast_S40000_S40000x1_0 z (ix2 (n0 := 40000) (n1 := 1) r 0) = z (ix1 r) :=
  broadcastInDim_apply _ bcast_S40000_S40000x1_0 z _ _ (fun a => match a with
    | ⟨0, _⟩ => by show r.val = if (40000 : Nat) = 1 then 0 else r.val; rw [if_neg (by decide)])

/-- A row broadcast along the nodes, read at (r, q): the row at (0, q). -/
theorem bcastRow_apply (y : S1x128.Idx → α) (i : S40000x128.Idx) :
    broadcastInDim S40000x128 ![0, 1] bcast_S1x128_S40000x128_0_1 y i = y (ix2 (n0 := 1) (n1 := 128) 0 (i 1)) :=
  broadcastInDim_apply _ bcast_S1x128_S40000x128_0_1 y i _ (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A per-feature vector laid out as a row, read at (0, q): the vector at q. -/
theorem rowOfB_apply (z : S128.Idx → α) (q : Fin 128) :
    broadcastInDim S1x128 ![1] bcast_S128_S1x128_1 z (ix2 (n0 := 1) (n1 := 128) 0 q) = z (ix1 q) :=
  broadcastInDim_apply _ bcast_S128_S1x128_1 z _ _ (fun a => match a with
    | ⟨0, _⟩ => by show q.val = if (128 : Nat) = 1 then 0 else q.val; rw [if_neg (by decide)])

/-- A per-node vector reshaped to a column, read at (r, 0): the vector at r. -/
theorem colCast_apply (z : S40000.Idx → α) (h : S40000.ShapeCasts NodeCol) (r : Fin 40000) :
    shapeCast NodeCol z h (ix2 (n0 := 40000) (n1 := 1) r 0) = z (ix1 r) :=
  shapeCast_apply z h _ _ (by
    rw [Shape.rowMajor_val_one, Shape.rowMajor_val_two]
    show r.val = r.val * 1 + 0
    omega)

/-- A per-feature vector reshaped to a row, read at (0, q): the vector at q. -/
theorem rowCast_apply (z : S128.Idx → α) (h : S128.ShapeCasts FeatRow) (q : Fin 128) :
    shapeCast FeatRow z h (ix2 (n0 := 1) (n1 := 128) 0 q) = z (ix1 q) :=
  shapeCast_apply z h _ _ (by
    rw [Shape.rowMajor_val_one, Shape.rowMajor_val_two]
    show q.val = 0 * 128 + q.val
    omega)

end Layout

/-! ## The three stages on the extended reals -/

/-- The host's projection, entry by entry, is the plain sum over the shared axis. -/
theorem hostDot_eq (x : FVec Ideal S40000x128 .f32) (w : FVec Ideal S128x128 .f32) : hostDot x w = proj x w := by
  funext i
  obtain ⟨p, q, rfl⟩ : ∃ (p : Fin 40000) (q : Fin 128), i = ix2 p q := ⟨i 0, i 1, eq_ix2 i⟩
  exact PlainDot.dotGeneral_apply (d := dot_S40000x128_S128x128_S40000x128_1_0_0_1_n_n) ⟨rfl, rfl, rfl, rfl, rfl, rfl⟩
    none .single x w p q

/-- A layer's arithmetic at an entry (r, q): the self-loop factor is read at node r, the bias at feature q. -/
theorem layer_entry (a h : FVec Ideal S40000x128 .f32) (d : FVec Ideal S40000 .f32) (b : FVec Ideal S128 .f32)
    (hc : S40000.ShapeCasts NodeCol) (hr : S128.ShapeCasts FeatRow) (i : S40000x128.Idx) :
    maximumf (addf (addf a (mulf h (broadcastInDim S40000x128 ![0, 1] bcast_S40000x1_S40000x128_0_1
          (broadcastInDim S40000x1 ![0] bcast_S40000_S40000x1_0 (mulf d d)))))
        (broadcastInDim S40000x128 ![0, 1] bcast_S1x128_S40000x128_0_1 (broadcastInDim S1x128 ![1] bcast_S128_S1x128_1 b)))
      (broadcastInDim S40000x128 ![] bcast_S_S40000x128 (constant (F := Ideal) S_ .f32 0x00000000#32)) i
    = combine a h (shapeCast NodeCol (mulf d d) hc) (shapeCast FeatRow b hr) i := by
  show max (a i + h i * broadcastInDim S40000x128 ![0, 1] bcast_S40000x1_S40000x128_0_1
          (broadcastInDim S40000x1 ![0] bcast_S40000_S40000x1_0 (mulf d d)) i
        + broadcastInDim S40000x128 ![0, 1] bcast_S1x128_S40000x128_0_1 (broadcastInDim S1x128 ![1] bcast_S128_S1x128_1 b) i)
      (Ideal.ofBits .f32 0x00000000#32)
    = max (a i + h i * shapeCast NodeCol (mulf d d) hc (ix2 (n0 := 40000) (n1 := 1) (i 0) 0)
        + shapeCast FeatRow b hr (ix2 (n0 := 1) (n1 := 128) 0 (i 1))) (Ideal.ofBits .f32 0x00000000#32)
  rw [bcastCol_apply, colOf_apply _ (i 0), bcastRow_apply, rowOfB_apply _ (i 1), colCast_apply _ hc (i 0), rowCast_apply _ hr (i 1)]

/-- A host layer is the model's layer. -/
theorem hostLayer_eq (x : FVec Ideal S40000x128 .f32) (w : FVec Ideal S128x128 .f32) (b : FVec Ideal S128 .f32)
    (e : Vec Ideal S2x640000 .i32) (ew : FVec Ideal S640000 .f32) :
    hostLayer x w b e ew = Model.layer x w b e ew := by
  unfold hostLayer Model.layer Model.selfCol Model.rowOf
  rw [hostDot_eq]
  funext i
  exact layer_entry _ _ _ _ _ _ i

/-- The host's sum over the features, from zero, read at node r. -/
theorem rowSum_apply (y : FVec Ideal S40000x128 .f32) (r : Fin 40000) :
    Host.reduceAdd (F := Ideal) y (constant S_ .f32 0x00000000#32) reducesTo_S40000x128_S40000_d1 h_S_ (ix1 r)
      = ∑ k : Fin 128, y (ix2 r k) := by
  simp only [Host.reduceAdd, Ideal.hostReduceAdd_def]
  rw [Ideal.hostReduceAdd_single reducesTo_S40000x128_S40000_d1 (by decide)]
  have h0 : (constant (F := Ideal) S_ .f32 0x00000000#32) (Shape.Idx.first h_S_) = 0 := Ideal.ofBits_zero_f32
  rw [h0, zero_add]
  refine Finset.sum_congr rfl fun k _ => ?_
  exact congrArg y (funext fun a => Fin.ext (by match a with | ⟨0, _⟩ => rfl | ⟨1, _⟩ => rfl))

/-- The column of row sums divided by 128, read at (r, 0). -/
theorem hostColMean_apply (y : FVec Ideal S40000x128 .f32) (r : Fin 40000) :
    hostColMean y (ix2 (n0 := 40000) (n1 := 1) r 0)
      = Ideal.div (∑ k : Fin 128, y (ix2 r k)) (Ideal.ofBits .f32 0x43000000#32) := by
  show Ideal.div (broadcastInDim S40000x1 ![0] bcast_S40000_S40000x1_0
        (Host.reduceAdd (F := Ideal) y (constant S_ .f32 0x00000000#32) reducesTo_S40000x128_S40000_d1 h_S_)
        (ix2 (n0 := 40000) (n1 := 1) r 0))
      (Ideal.ofBits .f32 0x43000000#32) = _
  rw [colOf_apply, rowSum_apply]

/-- A centred entry: the entry minus its row's mean. -/
theorem hostCen_apply (h : FVec Ideal S40000x128 .f32) (i : S40000x128.Idx) :
    hostCen h i = h i - rowMean h (i 0) := by
  show h i - broadcastInDim S40000x128 ![0, 1] bcast_S40000x1_S40000x128_0_1 (hostColMean h) i = _
  rw [bcastCol_apply, hostColMean_apply h (i 0)]
  rfl

/-- The scale column read at (r, 0): the reciprocal square root of row r's variance plus ε. -/
theorem hostInvStd_apply (h : FVec Ideal S40000x128 .f32) (r : Fin 40000) :
    hostInvStd h (ix2 (n0 := 40000) (n1 := 1) r 0) = Ideal.rsqrt (rowVar h r + Ideal.ofBits .f32 0x3727C5AC#32) := by
  show Ideal.rsqrt (hostColMean (mulf (hostCen h) (hostCen h)) (ix2 (n0 := 40000) (n1 := 1) r 0)
      + Ideal.ofBits .f32 0x3727C5AC#32) = _
  rw [hostColMean_apply]
  unfold rowVar
  refine congrArg (fun s => Ideal.rsqrt (Ideal.div s (Ideal.ofBits .f32 0x43000000#32) + Ideal.ofBits .f32 0x3727C5AC#32))
    (Finset.sum_congr rfl fun k _ => ?_)
  show hostCen h (ix2 r k) * hostCen h (ix2 r k) = _
  rw [hostCen_apply]

/-- The host normalisation is the layer normalisation with the gain and the offset as rows. -/
theorem hostNorm_eq (h : FVec Ideal S40000x128 .f32) (g be : FVec Ideal S128 .f32) :
    hostNorm h g be = layerNorm h (Model.rowOf (F := Ideal) g) (Model.rowOf (F := Ideal) be) := by
  funext i
  unfold Model.rowOf
  show hostCen h i * broadcastInDim S40000x128 ![0, 1] bcast_S40000x1_S40000x128_0_1 (hostInvStd h) i
        * broadcastInDim S40000x128 ![0, 1] bcast_S1x128_S40000x128_0_1 (broadcastInDim S1x128 ![1] bcast_S128_S1x128_1 g) i
      + broadcastInDim S40000x128 ![0, 1] bcast_S1x128_S40000x128_0_1 (broadcastInDim S1x128 ![1] bcast_S128_S1x128_1 be) i
    = (h i - rowMean h (i 0)) * Ideal.rsqrt (rowVar h (i 0) + Ideal.ofBits .f32 0x3727C5AC#32)
        * shapeCast FeatRow g (by decide) (ix2 (n0 := 1) (n1 := 128) 0 (i 1))
      + shapeCast FeatRow be (by decide) (ix2 (n0 := 1) (n1 := 128) 0 (i 1))
  rw [bcastCol_apply, hostInvStd_apply h (i 0), hostCen_apply, bcastRow_apply, rowOfB_apply _ (i 1), bcastRow_apply,
    rowOfB_apply _ (i 1), rowCast_apply _ _ (i 1), rowCast_apply _ _ (i 1)]

/-! ## The result -/

/-- The reference program's result is the encoder of its arguments. -/
theorem res_encoder (m : (ℓ : Loc nD τ sig) → Buf (Elt Ideal) ℓ) (c : Dev nD) :
    Cert.ReferenceIdeal.Value.res_main_v117 (F := Ideal) m c
      = Cert.Model.encoder (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  rw [res_grouped, hostLayer_eq, hostLayer_eq, hostNorm_eq]
  rfl

end Cert.RefValue

end
-- ==== Proof.lean ====
/-
  A two-layer graph-convolution encoder with layer normalisation: the Pallas program (five launches — projection,
  combine, projection, combine, layer norm — among host stretches that gather and scatter over the edges) against
  its jnp reference, over the extended reals.
  Both programs' results are ONE function of the nine arguments, `Cert.Model.encoder`: on the kernel side each
  launch's result array is the stage's whole-array function of the arrays it finds (its eight row blocks tile the
  40000 rows), and the host stretches in between are the reference's own gather / scatter operations; on the
  reference side the matrix products, the combine and the normalisation are read entry by entry. A tiled
  matrix product into a zero accumulator and the host's contraction are the same finite sum; a lane sum and the
  host's reduction from zero are the same finite sum; nothing else differs, so no law of the extended reals beyond
  that is needed and the inputs' finiteness is not used.
  The three frames: the two kernel programs' are the generated ones; the reference's is its run with the result
  dropped. The idealisation rewrote nothing, so `preserves` is trivial.
-/
import proofs.«169304_j7559142441000_1_alg».proof.Defs
import proofs.«169304_j7559142441000_1_alg».proof.Proof.Gen.Kernel
import proofs.«169304_j7559142441000_1_alg».proof.Proof.Gen.Kernel.Skeleton
import proofs.«169304_j7559142441000_1_alg».proof.Proof.Gen.Kernel.Launch
import proofs.«169304_j7559142441000_1_alg».proof.Proof.Gen.Kernel.Points
import proofs.«169304_j7559142441000_1_alg».proof.Proof.Gen.Kernel.Frame
import proofs.«169304_j7559142441000_1_alg».proof.Proof.Gen.KernelIdeal
import proofs.«169304_j7559142441000_1_alg».proof.Proof.Gen.KernelIdeal.Skeleton
import proofs.«169304_j7559142441000_1_alg».proof.Proof.Gen.KernelIdeal.Launch
import proofs.«169304_j7559142441000_1_alg».proof.Proof.Gen.KernelIdeal.Points
import proofs.«169304_j7559142441000_1_alg».proof.Proof.Gen.KernelIdeal.Frame
import proofs.«169304_j7559142441000_1_alg».proof.Proof.Gen.ReferenceIdeal
import proofs.«169304_j7559142441000_1_alg».proof.Proof.Gen.Pre_finite_inputs
import proofs.«169304_j7559142441000_1_alg».proof.Proof.Gen.ReferenceIdeal.Run
import proofs.«169304_j7559142441000_1_alg».proof.Proof.KernelRun
import proofs.«169304_j7559142441000_1_alg».proof.Proof.KChain
import proofs.«169304_j7559142441000_1_alg».proof.Proof.RefValue
import Idealize.ShloMosaic.Adequacy
import Idealize.ShloMosaic.Init

noncomputable section

namespace Cert.Proof

open Idealize.ShloMosaic Idealize.ShloMosaic.TcCoe Idealize.SL.Sem

/-- The idealized kernel ends with its result buffer at the encoder of its arguments, and the idealized reference,
    from a memory agreeing on the arguments, with its result buffer at the same array. -/
theorem algebraic : Cert.algebraic_KernelIdeal_ReferenceIdeal := by
  intro m ρ m' ρ' _ hagree
  refine ⟨fun c => Cert.Model.encoder
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.result m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.RefValue.res_encoder m' c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
